-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S4096x1000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S1000x256 : Shape := ⟨2, ![1000, 256]⟩
abbrev S1000 : Shape := ⟨1, ![1000]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S262144x256 .f32) (main_arg1 : IVec S262144 32) (main_arg2 : FVec F S1000x256 .f32) (main_arg3 : IVec S1000 1) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S262144x256 : Shape := ⟨2, ![262144, 256]⟩
abbrev S262144 : Shape := ⟨1, ![262144]⟩
abbrev S1000x256 : Shape := ⟨2, ![1000, 256]⟩
abbrev S1000 : Shape := ⟨1, ![1000]⟩
abbrev S262144x1 : Shape := ⟨2, ![262144, 1]⟩
abbrev S2x1000x256 : Shape := ⟨3, ![2, 1000, 256]⟩
abbrev S2x1x1000 : Shape := ⟨3, ![2, 1, 1000]⟩
abbrev S4096x256 : Shape := ⟨2, ![4096, 256]⟩
abbrev S4096x1 : Shape := ⟨2, ![4096, 1]⟩
abbrev S1x1000x256 : Shape := ⟨3, ![1, 1000, 256]⟩
abbrev S1x1x1000 : Shape := ⟨3, ![1, 1, 1000]⟩
abbrev S1x1000 : Shape := ⟨2, ![1, 1000]⟩
abbrev S4096x1000 : Shape := ⟨2, ![4096, 1000]⟩
abbrev S_ : Shape := ⟨0, ![]⟩
abbrev S1000x1 : Shape := ⟨2, ![1000, 1]⟩

abbrev nBuf : Space → Nat
  | .hbm => 55
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S1000, .i1⟩
  | .hbm, ⟨4, _⟩ => ⟨S262144x1, .i32⟩
  | .hbm, ⟨5, _⟩ => ⟨S2x1000x256, .f32⟩
  | .hbm, ⟨6, _⟩ => ⟨S2x1x1000, .f32⟩
  | .hbm, ⟨7, _⟩ => ⟨S_, .f32⟩
  | .hbm, ⟨8, _⟩ => ⟨S1000x256, .f32⟩
  | .hbm, ⟨9, _⟩ => ⟨S_, .f32⟩
  | .hbm, ⟨10, _⟩ => ⟨S1x1000, .f32⟩
  | .hbm, ⟨11, _⟩ => ⟨S1000, .f32⟩
  | .hbm, ⟨12, _⟩ => ⟨S_, .f32⟩
  | .hbm, ⟨13, _⟩ => ⟨S1000, .f32⟩
  | .hbm, ⟨14, _⟩ => ⟨S1000, .i1⟩
  | .hbm, ⟨15, _⟩ => ⟨S_, .f32⟩
  | .hbm, ⟨16, _⟩ => ⟨S1000, .f32⟩
  | .hbm, ⟨17, _⟩ => ⟨S1000, .f32⟩
  | .hbm, ⟨18, _⟩ => ⟨S1000x1, .f32⟩
  | .hbm, ⟨19, _⟩ => ⟨S1000x256, .f32⟩
  | .hbm, ⟨20, _⟩ => ⟨S1000x256, .f32⟩
  | .hbm, ⟨21, _⟩ => ⟨S1000x256, .f32⟩
  | .hbm, ⟨22, _⟩ => ⟨S_, .f32⟩
  | .hbm, ⟨23, _⟩ => ⟨S1000, .f32⟩
  | .hbm, ⟨24, _⟩ => ⟨S1000x1, .f32⟩
  | .hbm, ⟨25, _⟩ => ⟨S1000x1, .f32⟩
  | .hbm, ⟨26, _⟩ => ⟨S_, .f32⟩
  | .hbm, ⟨27, _⟩ => ⟨S1000x1, .f32⟩
  | .hbm, ⟨28, _⟩ => ⟨S1000x1, .f32⟩
  | .hbm, ⟨29, _⟩ => ⟨S1000x256, .f32⟩
  | .hbm, ⟨30, _⟩ => ⟨S1000x256, .f32⟩
  | .hbm, ⟨31, _⟩ => ⟨S_, .f32⟩
  | .hbm, ⟨32, _⟩ => ⟨S1000x256, .f32⟩
  | .hbm, ⟨33, _⟩ => ⟨S1000x256, .f32⟩
  | .hbm, ⟨34, _⟩ => ⟨S_, .f32⟩
  | .hbm, ⟨35, _⟩ => ⟨S1000x256, .f32⟩
  | .hbm, ⟨36, _⟩ => ⟨S1000x256, .f32⟩
  | .hbm, ⟨37, _⟩ => ⟨S1000x256, .f32⟩
  | .hbm, ⟨38, _⟩ => ⟨S1000x256, .f32⟩
  | .hbm, ⟨39, _⟩ => ⟨S_, .f32⟩
  | .hbm, ⟨40, _⟩ => ⟨S1000, .f32⟩
  | .hbm, ⟨41, _⟩ => ⟨S1000x1, .f32⟩
  | .hbm, ⟨42, _⟩ => ⟨S1000x1, .f32⟩
  | .hbm, ⟨43, _⟩ => ⟨S_, .f32⟩
  | .hbm, ⟨44, _⟩ => ⟨S1000x1, .f32⟩
  | .hbm, ⟨45, _⟩ => ⟨S1000x1, .f32⟩
  | .hbm, ⟨46, _⟩ => ⟨S1000x256, .f32⟩
  | .hbm, ⟨47, _⟩ => ⟨S1000x256, .f32⟩
  | .hbm, ⟨48, _⟩ => ⟨S1000x1, .i1⟩
  | .hbm, ⟨49, _⟩ => ⟨S1000x256, .i1⟩
  | .hbm, ⟨50, _⟩ => ⟨S1000x256, .f32⟩
  | .hbm, ⟨51, _⟩ => ⟨S1000x1, .i1⟩
  | .hbm, ⟨52, _⟩ => ⟨S1000x256, .i1⟩
  | .hbm, ⟨53, _⟩ => ⟨S1000x256, .f32⟩
  | .hbm, ⟨54, _⟩ => ⟨S1000, .i1⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S1x1000x256, .f32⟩
  | .local _ .vmem, ⟨5, _⟩ => ⟨S1x1000x256, .f32⟩
  | .local _ .vmem, ⟨6, _⟩ => ⟨S1x1x1000, .f32⟩
  | .local _ .vmem, ⟨7, _⟩ => ⟨S1x1x1000, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_v0 : Ref sig .tc := ⟨.hbm, 49, rfl⟩
abbrev main_v34 : Ref sig .tc := ⟨.hbm, 50, rfl⟩
abbrev main_v35 : Ref sig .tc := ⟨.hbm, 51, rfl⟩
abbrev main_call1_v0 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144_S262144x1 : S262144.ShapeCasts S262144x1
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  shapeCasts_S1x1000_S1x1x1000 : S1x1000.ShapeCasts S1x1x1000
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x1000_d1_w32 : S4096x1000.Iotas .tc 32 [1]
  broadcasts_S4096x1_S4096x1000 : S4096x1.Broadcasts S4096x1000
  natLt_1_32 : 1 < 32
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  reduces_S4096x1000_S1000 : S4096x1000.Reduces [0] S1000
  shapeCasts_S1000_S1x1000 : S1000.ShapeCasts S1x1000
  reducesTo_S2x1000x256_S1000x256_d0 : S2x1000x256.ReducesTo [0] S1000x256
  h_S_ : 0 < S_.numel
  reducesTo_S2x1x1000_S1x1000_d0 : S2x1x1000.ReducesTo [0] S1x1000
  shapeCasts_S1x1000_S1000 : S1x1000.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  bcast_S_S1000x1 : S_.BroadcastsInDim S1000x1 (![] : Fin 0 → Fin S1000x1.rank)
  bcast_S_S1000x256 : S_.BroadcastsInDim S1000x256 (![] : Fin 0 → Fin S1000x256.rank)
  dot_S4096x1000_S4096x256_S1000x256_0_0_1_1_n_n_wf : DotDims.WF S4096x1000 S4096x256 S1000x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S2x1x1000.size a
  hwx0_3 : ∀ i : grid0.Coords, EltTy.bits .f32 = 32 ∨ (Rect.block (s := S2x1x1000) S1x1x1000.size (cc0_transform_3 i) (hinb0_3 i)).WholeWords (EltTy.packing .f32)

variable [Facts₀]

def dot_S4096x1000_S4096x256_S1000x256_0_0_1_1_n_n : DotDims S4096x1000 S4096x256 S1000x256 where
  lhsContracting := [0]
  rhsContracting := [0]
  lhsNonContracting := [1]
  rhsNonContracting := [1]
  lhsBatch := []
  rhsBatch := []
  wf := dot_S4096x1000_S4096x256_S1000x256_0_0_1_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S1000x256 : Shape := ⟨2, ![1000, 256]⟩
abbrev S1000 : Shape := ⟨1, ![1000]⟩
abbrev S_ : Shape := ⟨0, ![]⟩
abbrev S262144x1 : Shape := ⟨2, ![262144, 1]⟩
abbrev S1000x1 : Shape := ⟨2, ![1000, 1]⟩

abbrev nBuf : Space → Nat
  | .hbm => 59
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S1000, .i1⟩
  | .hbm, ⟨4, _⟩ => ⟨S_, .f32⟩
  | .hbm, ⟨5, _⟩ => ⟨S1000x256, .f32⟩
  | .hbm, ⟨6, _⟩ => ⟨S262144x1, .i32⟩
  | .hbm, ⟨7, _⟩ => ⟨S1000x256, .f32⟩
  | .hbm, ⟨8, _⟩ => ⟨S262144x1, .f32⟩
  | .hbm, ⟨9, _⟩ => ⟨S262144, .f32⟩
  | .hbm, ⟨10, _⟩ => ⟨S_, .f32⟩
  | .hbm, ⟨11, _⟩ => ⟨S262144, .f32⟩
  | .hbm, ⟨12, _⟩ => ⟨S_, .f32⟩
  | .hbm, ⟨13, _⟩ => ⟨S1000, .f32⟩
  | .hbm, ⟨14, _⟩ => ⟨S262144x1, .i32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .i1⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000x1, .f32⟩
  | .hbm, ⟨23, _⟩ => ⟨S1000x256, .f32⟩
  | .hbm, ⟨24, _⟩ => ⟨S1000x256, .f32⟩
  | .hbm, ⟨25, _⟩ => ⟨S1000x256, .f32⟩
  | .hbm, ⟨26, _⟩ => ⟨S_, .f32⟩
  | .hbm, ⟨27, _⟩ => ⟨S1000, .f32⟩
  | .hbm, ⟨28, _⟩ => ⟨S1000x1, .f32⟩
  | .hbm, ⟨29, _⟩ => ⟨S1000x1, .f32⟩
  | .hbm, ⟨30, _⟩ => ⟨S_, .f32⟩
  | .hbm, ⟨31, _⟩ => ⟨S1000x1, .f32⟩
  | .hbm, ⟨32, _⟩ => ⟨S1000x1, .f32⟩
  | .hbm, ⟨33, _⟩ => ⟨S1000x256, .f32⟩
  | .hbm, ⟨34, _⟩ => ⟨S1000x256, .f32⟩
  | .hbm, ⟨35, _⟩ => ⟨S_, .f32⟩
  | .hbm, ⟨36, _⟩ => ⟨S1000x256, .f32⟩
  | .hbm, ⟨37, _⟩ => ⟨S1000x256, .f32⟩
  | .hbm, ⟨38, _⟩ => ⟨S_, .f32⟩
  | .hbm, ⟨39, _⟩ => ⟨S1000x256, .f32⟩
  | .hbm, ⟨40, _⟩ => ⟨S1000x256, .f32⟩
  | .hbm, ⟨41, _⟩ => ⟨S1000x256, .f32⟩
  | .hbm, ⟨42, _⟩ => ⟨S1000x256, .f32⟩
  | .hbm, ⟨43, _⟩ => ⟨S_, .f32⟩
  | .hbm, ⟨44, _⟩ => ⟨S1000, .f32⟩
  | .hbm, ⟨45, _⟩ => ⟨S1000x1, .f32⟩
  | .hbm, ⟨46, _⟩ => ⟨S1000x1, .f32⟩
  | .hbm, ⟨47, _⟩ => ⟨S_, .f32⟩
  | .hbm, ⟨48, _⟩ => ⟨S1000x1, .f32⟩
  | .hbm, ⟨49, _⟩ => ⟨S1000x1, .f32⟩
  | .hbm, ⟨50, _⟩ => ⟨S1000x256, .f32⟩
  | .hbm, ⟨51, _⟩ => ⟨S1000x256, .f32⟩
  | .hbm, ⟨52, _⟩ => ⟨S1000x1, .i1⟩
  | .hbm, ⟨53, _⟩ => ⟨S1000x256, .i1⟩
  | .hbm, ⟨54, _⟩ => ⟨S1000x256, .f32⟩
  | .hbm, ⟨55, _⟩ => ⟨S1000x1, .i1⟩
  | .hbm, ⟨56, _⟩ => ⟨S1000x256, .i1⟩
  | .hbm, ⟨57, _⟩ => ⟨S1000x256, .f32⟩
  | .hbm, ⟨58, _⟩ => ⟨S1000, .i1⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  bcast_S_S1000x256 : S_.BroadcastsInDim S1000x256 (![] : Fin 0 → Fin S1000x256.rank)
  bcast_S262144_S262144x1_0 : S262144.BroadcastsInDim S262144x1 (![0] : Fin 1 → Fin S262144x1.rank)
  slices_S262144x256_S262144x1_0_0 : S262144x256.Slices ![0, 0] S262144x1
  shapeCasts_S262144x1_S262144 : S262144x1.ShapeCasts S262144
  bcast_S_S262144 : S_.BroadcastsInDim S262144 (![] : Fin 0 → Fin S262144.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  reducesTo_S1000x256_S1000_d1 : S1000x256.ReducesTo [1] S1000
  h_S_ : 0 < S_.numel
  bcast_S_S1000x1 : S_.BroadcastsInDim S1000x1 (![] : Fin 0 → Fin S1000x1.rank)
  scatter_S1000x256_S262144x1_S262144x256_1_0_0_1_wf : ScatterDims.WF S1000x256 S262144x1 S262144x256 [1] [0] [0] 1
  scatter_S1000_S262144x1_S262144_n_0_0_1_wf : ScatterDims.WF S1000 S262144x1 S262144 [] [0] [0] 1

variable [Facts₀]

def scatter_S1000x256_S262144x1_S262144x256_1_0_0_1 : ScatterDims S1000x256 S262144x1 S262144x256 where
  updateWindowDims := [1]
  insertedWindowDims := [0]
  scatterDimsToOperandDims := [0]
  indexVectorDim := 1
  wf := scatter_S1000x256_S262144x1_S262144x256_1_0_0_1_wf
def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf

class Facts : Prop extends Facts₀ where

variable [Facts]
-- ==== Proof.KernelPieces.lean ====
/-
  What one run of the kernel body leaves in its two output blocks, as a value.

  The body keeps two running blocks: the [1, 1000, 256] block of per-class sums and the [1, 1, 1000] block of per-class
  counts. At the first step of a half of the samples (case A) it first overwrites both with zeros and then, like every other
  step (case B), loads the running block, adds the step's contribution and stores the result over the whole block. So
  after a step each block holds ONE stored value: the update (the body's arithmetic: the generated payloads k0_pay4 for the sums
  and k0_pay5 for the counts) applied to the step's label block, its feature block and
    case A: the all-zero block (k0_pay1, k0_pay2) just stored and read back,
    case B: what the step before left.
  Each statement holds at any float instance: it only reads stores and loads through whole-block rectangles.
-/
import proofs.«402248_j17849884082283_1_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- The zero offsets of a whole-block rectangle, rank 2 and rank 3. -/
theorem zeroOff2 : (![0, 0] : Fin 2 → ℕ) = fun _ => 0 := by funext a; fin_cases a <;> rfl
theorem zeroOff3 : (![0, 0, 0] : Fin 3 → ℕ) = fun _ => 0 := by funext a; fin_cases a <;> rfl

/-- Case B, the sums: the update of what the step before left. -/
theorem out0_B_2_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S1x1000x256 .f32) (harg4 : arg4.IsWhole) (arg5 : Memref sig .tc .vmem S1x1x1000 .f32) (harg5 : arg5.IsWhole) (hc0 : ¬cond0_0 i)
    (x0 : Vec F S4096x256 .f32) (x1 : Vec F S4096x1 .i32) (xo2 : Vec F S1x1000x256 .f32) (xo3 : Vec F S1x1x1000 .f32) :
    out0_B_2 c i arg2 harg2 arg3 harg3 arg4 harg4 arg5 harg5 hc0 x0 x1 xo2 xo3 = k0_pay4 x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero zeroOff3]
  simp only [View.readAt_eq_ld, harg2.read_unread, harg3.read_unread, harg4.read_unread,
    View.ld_unit_zero (S := S4096x1) zeroOff2, View.ld_unit_zero (S := S4096x256) zeroOff2,
    View.ld_unit_zero (S := S1x1000x256) zeroOff3]

/-- Case B, the counts: the update of what the step before left. -/
theorem out0_B_3_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S1x1000x256 .f32) (harg4 : arg4.IsWhole) (arg5 : Memref sig .tc .vmem S1x1x1000 .f32) (harg5 : arg5.IsWhole) (hc0 : ¬cond0_0 i)
    (x0 : Vec F S4096x256 .f32) (x1 : Vec F S4096x1 .i32) (xo2 : Vec F S1x1000x256 .f32) (xo3 : Vec F S1x1x1000 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero zeroOff3]
  simp only [View.readAt_eq_ld, harg3.read_unread, harg5.read_unread,
    View.ld_unit_zero (S := S4096x1) zeroOff2, View.ld_unit_zero (S := S1x1x1000) zeroOff3]

/-- Case A, the sums: the update of the all-zero block. -/
theorem out0_A_2_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S1x1000x256 .f32) (harg4 : arg4.IsWhole) (arg5 : Memref sig .tc .vmem S1x1x1000 .f32) (harg5 : arg5.IsWhole) (hc0 : cond0_0 i)
    (x0 : Vec F S4096x256 .f32) (x1 : Vec F S4096x1 .i32) :
    out0_A_2 c i arg2 harg2 arg3 harg3 arg4 harg4 arg5 harg5 hc0 x0 x1 = k0_pay4 x1 x0 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1000x256) zeroOff3, View.readCov_unit_zero (S := S1x1000x256) _ zeroOff3]
  simp only [View.readAt_eq_ld, harg2.read_unread, harg3.read_unread,
    View.ld_unit_zero (S := S4096x1) zeroOff2, View.ld_unit_zero (S := S4096x256) zeroOff2]

/-- Case A, the counts: the update of the all-zero block. -/
theorem out0_A_3_eq (c : Dev nD) (i : grid0.Coords) (arg2 : Memref sig .tc .vmem S4096x256 .f32) (harg2 : arg2.IsWhole) (arg3 : Memref sig .tc .vmem S4096x1 .i32) (harg3 : arg3.IsWhole) (arg4 : Memref sig .tc .vmem S1x1000x256 .f32) (harg4 : arg4.IsWhole) (arg5 : Memref sig .tc .vmem S1x1x1000 .f32) (harg5 : arg5.IsWhole) (hc0 : cond0_0 i)
    (x0 : Vec F S4096x256 .f32) (x1 : Vec F S4096x1 .i32) :
    out0_A_3 c i arg2 harg2 arg3 harg3 arg4 harg4 arg5 harg5 hc0 x0 x1 = k0_pay5 x1 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x1000) zeroOff3, View.readCov_unit_zero (S := S1x1x1000) _ zeroOff3]
  simp only [View.readAt_eq_ld, harg3.read_unread, View.ld_unit_zero (S := S4096x1) zeroOff2]

end Cert.KernelIdeal.Gen

end
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.SegSpec.lean ====
/-
  The mathematics both programs compute before their common tail, and the facts about it that mention no program.

  Sample n has a label word y[n] and a feature row z[n, ·]. Class c (0 ≤ c < 1000) collects the samples whose label,
  read as a signed integer, is c; a label outside [0, 1000) belongs to no class. The per-class sum is
      segSum z y (c, d) = Σ_n [y[n] = c] · z[n, d]
  and the per-class count is
      segCount y c = Σ_n [y[n] = c].
  One program adds each row into the class its label names; the other multiplies by a 0/1 matrix whose entry
  (n, c) is 1 exactly when y[n] = c, sample block by sample block, and adds the blocks' products. Over the extended
  reals 0 · v = 0 and 1 · v = v for every v, infinite or not, and addition is commutative and associative, so both are the
  sum above and no finiteness is used.

  Here: the 0/1 entry as an extended real (oneHot_entry), a product with it as a choice (oneHot_mul), and the sum over all
  262144 samples split into 2 halves of 32 blocks of 4096 samples (sum_halves_blocks).
-/
import Idealize.ShloMosaic.PureOps.Ideal
import Idealize.ShloMosaic.Lib.ValueIdx
import Mathlib.Algebra.BigOperators.Fin
import Mathlib.Algebra.BigOperators.Intervals
import proofs.«402248_j17849884082283_1_alg».proof.Proof.LibBlockSum

noncomputable section

open scoped BigOperators

namespace Cert.SegSpec

open Idealize.ShloMosaic Idealize.ShloMosaic.ValueIdx

/-- The sum of the rows of class j 0, at column j 1. -/
def segSum (z : (⟨2, ![262144, 256]⟩ : Shape).Idx → EReal) (y : (⟨1, ![262144]⟩ : Shape).Idx → BitVec 32) :
    (⟨2, ![1000, 256]⟩ : Shape).Idx → EReal :=
  fun j => ∑ n : Fin 262144, if (y (ix1 n)).toInt = ((j 0).val : ℤ) then z (ix2 n (j 1)) else 0

/-- The number of samples of class j 0, as an extended real. -/
def segCount (y : (⟨1, ![262144]⟩ : Shape).Idx → BitVec 32) : (⟨1, ![1000]⟩ : Shape).Idx → EReal :=
  fun j => ∑ n : Fin 262144, if (y (ix1 n)).toInt = ((j 0).val : ℤ) then (1 : EReal) else 0

/-- A word equals the word of a small natural exactly when its signed value is that natural. -/
theorem eq_ofNat_iff_toInt (w : BitVec 32) (c : ℕ) (hc : c < 1000) :
    w = BitVec.ofNat 32 c ↔ w.toInt = (c : ℤ) := by
  have hv : (BitVec.ofNat 32 c).toInt = (c : ℤ) := by
    rw [BitVec.toInt_eq_toNat_cond, BitVec.toNat_ofNat]
    have : c % 2 ^ 32 = c := Nat.mod_eq_of_lt (by omega)
    rw [this, if_pos (by omega)]
  constructor
  · rintro rfl; exact hv
  · intro h; exact BitVec.eq_of_toInt_eq (h.trans hv.symm)

/-- The 0/1 entry: the comparison bit of a label against a class number, widened to a word and converted to a float,
    is 1 when the label is the class and 0 otherwise. -/
theorem oneHot_entry (w : BitVec 32) (c : ℕ) (hc : c < 1000) :
    (((((IntOp.cmpi .eq w (BitVec.ofNat 32 c)).setWidth 32).toInt : ℝ)) : EReal)
      = if w.toInt = (c : ℤ) then (1 : EReal) else 0 := by
  unfold IntOp.cmpi
  by_cases h : w.toInt = (c : ℤ)
  · have hw : w = BitVec.ofNat 32 c := (eq_ofNat_iff_toInt w c hc).mpr h
    rw [if_pos h]
    have hb : (w == BitVec.ofNat 32 c) = true := by rw [hw]; exact beq_self_eq_true _
    have e1 : ((BitVec.ofBool true).setWidth 32).toInt = 1 := by decide
    rw [hb, e1, Int.cast_one, EReal.coe_one]
  · have hw : ¬ w = BitVec.ofNat 32 c := fun e => h ((eq_ofNat_iff_toInt w c hc).mp e)
    rw [if_neg h]
    have hb : (w == BitVec.ofNat 32 c) = false := by simpa using hw
    have e0 : ((BitVec.ofBool false).setWidth 32).toInt = 0 := by decide
    rw [hb, e0, Int.cast_zero, EReal.coe_zero]

/-- A product with the 0/1 entry keeps the other factor or gives 0, whatever extended real that factor is. -/
theorem oneHot_mul (p : Prop) [Decidable p] (v : EReal) :
    (if p then (1 : EReal) else 0) * v = if p then v else 0 := by
  by_cases h : p
  · rw [if_pos h, if_pos h, one_mul]
  · rw [if_neg h, if_neg h, zero_mul]

/-- Sample number of block t (of 64) at place r (of 4096). -/
def sample (t : Fin 64) (r : Fin 4096) : Fin 262144 := Cert.BlockSum.pos 64 4096 rfl t r

@[simp] theorem sample_val (t : Fin 64) (r : Fin 4096) : (sample t r).val = t.val * 4096 + r.val := rfl

/-- Block number of half q (of 2) at step s (of 32). -/
def blockOf (q : Fin 2) (s : Fin 32) : Fin 64 := Cert.BlockSum.pos 2 32 rfl q s

@[simp] theorem blockOf_val (q : Fin 2) (s : Fin 32) : (blockOf q s).val = q.val * 32 + s.val := rfl

/-- The sum over all samples, half by half, block by block inside a half, sample by sample inside a block. -/
theorem sum_halves_blocks {M : Type*} [AddCommMonoid M] (f : Fin 262144 → M) :
    ∑ n : Fin 262144, f n = ∑ q : Fin 2, ∑ s : Fin 32, ∑ r : Fin 4096, f (sample (blockOf q s) r) := by
  rw [Cert.BlockSum.sum_blocks 64 4096 rfl f, Cert.BlockSum.sum_blocks 2 32 rfl (fun t => ∑ r : Fin 4096, f (Cert.BlockSum.pos 64 4096 rfl t r))]
  rfl

end Cert.SegSpec

end
-- ==== Proof.KernelPayload.lean ====
/-
  The kernel body's arithmetic read at an index, over the extended reals.

  In one step the body sees a block of 4096 labels (a column of words) and the matching 4096 × 256 block of features.
    * The 0/1 matrix: entry (r, c) compares label r with the lane number c, widens the bit and converts it to a float: it is
      1 when label r, read signed, is c, and 0 otherwise (oneHot_apply).
    * The sums' update: the old block plus (0/1 matrix)ᵀ · (features). Both operands are contracted along their row axis, so
      entry (c, d) of the product is Σ_r [label r = c] · feature (r, d), that is, the sum of the features of the block's
      samples of class c (sums_step_apply). Narrowing an operand to bf16 changes nothing over the extended reals.
    * The counts' update: the old block plus the column sums of the 0/1 matrix: entry c gains the number of the block's
      samples of class c (counts_step_apply).
    * The two reset values are zero everywhere (zeroSums_apply, zeroCounts_apply).
-/
import proofs.«402248_j17849884082283_1_alg».proof.Proof.Gen.KernelIdeal.Skeleton
import proofs.«402248_j17849884082283_1_alg».proof.Proof.SegSpec
import Idealize.ShloMosaic.Lib.ValueIdx
import Idealize.ShloMosaic.Lib.Pipeline.Value
import Idealize.ShloMosaic.PureOps.Ideal.Laws

noncomputable section

open scoped BigOperators

namespace Cert.KernelIdeal.Gen

open Idealize.ShloMosaic Idealize.ShloMosaic.ValueIdx Cert.SegSpec

/-- An integer comparison of vectors compares the elements. -/
theorem cmpi_at {s : Shape} {w : Nat} (p : CmpIPredicate) (x y : IVec s w) (i : s.Idx) :
    cmpi p x y i = IntOp.cmpi p (x i) (y i) := rfl

/-- Entry (r, c) of the 0/1 matrix. -/
theorem oneHot_apply (v3 : Vec Ideal S4096x1 .i32) (r : Fin 4096) (c : Fin 1000) :
    k0_pay3 (F := Ideal) v3 (ix2 r c)
      = if (v3 (ix2 r (0 : Fin 1))).toInt = (c.val : ℤ) then (1 : EReal) else 0 := by
  unfold k0_pay3
  dsimp only
  rw [sitofp_apply, extui_apply, cmpi_at, iota_single_apply,
    broadcastTo_apply _ _ (ix2 r c) (ix2 r (0 : Fin 1)) (by
      intro a; match a with | ⟨0, _⟩ => rfl | ⟨1, _⟩ => rfl),
    shapeCast_self]
  exact oneHot_entry _ c.val c.isLt

/-! ## The product (0/1 matrix)ᵀ · (features) at an entry -/

section Product
variable [Facts]

/-- The contraction runs over the row axis of both operands: 4096 terms. -/
def rowsEquiv : dot_S4096x1000_S4096x256_S1000x256_0_0_1_1_n_n.contr.Idx ≃ Fin 4096 :=
  contrEquiv1 dot_S4096x1000_S4096x256_S1000x256_0_0_1_1_n_n 4096 rfl rfl

theorem lhs_rows (j : S1000x256.Idx) (k : dot_S4096x1000_S4096x256_S1000x256_0_0_1_1_n_n.contr.Idx) :
    (dot_S4096x1000_S4096x256_S1000x256_0_0_1_1_n_n.lhsIdx j k 0).val = (k ⟨0, by decide⟩).val :=
  dot_S4096x1000_S4096x256_S1000x256_0_0_1_1_n_n.lhsIdx_val_of_single rfl j k

theorem rhs_rows (j : S1000x256.Idx) (k : dot_S4096x1000_S4096x256_S1000x256_0_0_1_1_n_n.contr.Idx) :
    (dot_S4096x1000_S4096x256_S1000x256_0_0_1_1_n_n.rhsIdx j k 0).val = (k ⟨0, by decide⟩).val :=
  dot_S4096x1000_S4096x256_S1000x256_0_0_1_1_n_n.rhsIdx_val_of_single rfl j k

theorem lhs_cols (j : S1000x256.Idx) (k : dot_S4096x1000_S4096x256_S1000x256_0_0_1_1_n_n.contr.Idx) :
    (dot_S4096x1000_S4096x256_S1000x256_0_0_1_1_n_n.lhsIdx j k 1).val = (j 0).val := by
  unfold DotDims.lhsIdx
  rw [dif_neg (show ¬(1 : Fin S4096x1000.rank) ∈ dot_S4096x1000_S4096x256_S1000x256_0_0_1_1_n_n.lhsBatch by decide),
    dif_pos (show (1 : Fin S4096x1000.rank) ∈ dot_S4096x1000_S4096x256_S1000x256_0_0_1_1_n_n.lhsNonContracting by decide)]
  rfl

theorem rhs_cols (j : S1000x256.Idx) (k : dot_S4096x1000_S4096x256_S1000x256_0_0_1_1_n_n.contr.Idx) :
    (dot_S4096x1000_S4096x256_S1000x256_0_0_1_1_n_n.rhsIdx j k 1).val = (j 1).val := by
  unfold DotDims.rhsIdx
  rw [dif_neg (show ¬(1 : Fin S4096x256.rank) ∈ dot_S4096x1000_S4096x256_S1000x256_0_0_1_1_n_n.rhsBatch by decide),
    dif_pos (show (1 : Fin S4096x256.rank) ∈ dot_S4096x1000_S4096x256_S1000x256_0_0_1_1_n_n.rhsNonContracting by decide)]
  rfl

/-- Entry (c, d) of the product into the zero accumulator: the sum over the block's rows r of left (r, c) · right (r, d). -/
theorem product_apply (lhs : FVec Ideal S4096x1000 .bf16) (rhs : FVec Ideal S4096x256 .bf16) (c : Fin 1000) (d : Fin 256) :
    matmul dot_S4096x1000_S4096x256_S1000x256_0_0_1_1_n_n none lhs rhs (constant S1000x256 .f32 0x00000000#32) (ix2 c d)
      = ∑ r : Fin 4096, lhs (ix2 r c) * rhs (ix2 r d) := by
  simp only [matmul]
  rw [Ideal.matmul_constant_zero_apply, ← Equiv.sum_comp rowsEquiv.symm]
  refine Finset.sum_congr rfl fun r _ => ?_
  have hr : ((rowsEquiv.symm r) ⟨0, by decide⟩ : ℕ) = r.val := contrEquiv1_symm_val _ 4096 rfl rfl r
  have hl : dot_S4096x1000_S4096x256_S1000x256_0_0_1_1_n_n.lhsIdx (ix2 c d) (rowsEquiv.symm r) = ix2 r c := by
    funext a
    match a with
    | ⟨0, _⟩ => exact Fin.ext ((lhs_rows _ _).trans hr)
    | ⟨1, _⟩ => exact Fin.ext (lhs_cols _ _)
  have hrr : dot_S4096x1000_S4096x256_S1000x256_0_0_1_1_n_n.rhsIdx (ix2 c d) (rowsEquiv.symm r) = ix2 r d := by
    funext a
    match a with
    | ⟨0, _⟩ => exact Fin.ext ((rhs_rows _ _).trans hr)
    | ⟨1, _⟩ => exact Fin.ext (rhs_cols _ _)
  rw [hl, hrr]

/-- The sums' update at (0, c, d): the old entry plus the sum of the features (·, d) of the block's samples of class c. -/
theorem sums_step_apply (v3 : Vec Ideal S4096x1 .i32) (v11 : Vec Ideal S4096x256 .f32) (v17 : Vec Ideal S1x1000x256 .f32)
    (c : Fin 1000) (d : Fin 256) :
    k0_pay4 (F := Ideal) v3 v11 v17 (ix3 (0 : Fin 1) c d)
      = v17 (ix3 (0 : Fin 1) c d)
        + ∑ r : Fin 4096, if (v3 (ix2 r (0 : Fin 1))).toInt = (c.val : ℤ) then v11 (ix2 r d) else 0 := by
  unfold k0_pay4
  rw [shapeCast_apply _ _ (ix3 (0 : Fin 1) c d) (ix2 c d) (by
      rw [Shape.rowMajor_val_two, Shape.rowMajor_val_three]; simp),
    addf_apply,
    shapeCast_apply _ _ (ix2 c d) (ix3 (0 : Fin 1) c d) (by
      rw [Shape.rowMajor_val_two, Shape.rowMajor_val_three]; simp),
    product_apply]
  refine congrArg (v17 (ix3 (0 : Fin 1) c d) + ·) (Finset.sum_congr rfl fun r _ => ?_)
  rw [truncf_apply, truncf_apply, oneHot_apply, oneHot_mul]

/-- The counts' update at (0, 0, c): the old entry plus the number of the block's samples of class c. -/
theorem counts_step_apply (v3 : Vec Ideal S4096x1 .i32) (v23 : Vec Ideal S1x1x1000 .f32) (c : Fin 1000) :
    k0_pay5 (F := Ideal) v3 v23 (ix3 (0 : Fin 1) (0 : Fin 1) c)
      = v23 (ix3 (0 : Fin 1) (0 : Fin 1) c)
        + ∑ r : Fin 4096, if (v3 (ix2 r (0 : Fin 1))).toInt = (c.val : ℤ) then (1 : EReal) else 0 := by
  unfold k0_pay5
  dsimp only
  rw [shapeCast_apply _ _ (ix3 (0 : Fin 1) (0 : Fin 1) c) (ix2 (0 : Fin 1) c) (by
      rw [Shape.rowMajor_val_two, Shape.rowMajor_val_three]; simp),
    addf_apply,
    shapeCast_apply _ _ (ix2 (0 : Fin 1) c) (ix3 (0 : Fin 1) (0 : Fin 1) c) (by
      rw [Shape.rowMajor_val_two, Shape.rowMajor_val_three]; simp),
    shapeCast_apply _ _ (ix2 (0 : Fin 1) c) (ix1 c) (by
      rw [Shape.rowMajor_val_two, Shape.rowMajor_val_one]; simp)]
  refine congrArg (v23 (ix3 (0 : Fin 1) (0 : Fin 1) c) + ·) ?_
  refine (Ideal.multiReduction_add_single (k0_pay3 (F := Ideal) v3) 0x00000000#32 reduces_S4096x1000_S1000 (.inl rfl) rfl (ix1 c)).trans ?_
  refine Finset.sum_congr rfl fun (r : Fin 4096) _ => ?_
  have hi : reduces_S4096x1000_S1000.lift (ix1 c) r = (ix2 r c : S4096x1000.Idx) := by
    funext a
    match a with
    | ⟨0, _⟩ => exact Fin.ext rfl
    | ⟨1, _⟩ => exact Fin.ext rfl
  exact (congrArg (k0_pay3 (F := Ideal) v3) hi).trans (oneHot_apply v3 r c)

end Product

/-- The sums' reset value is zero everywhere. -/
theorem zeroSums_apply [Facts] (j : S1x1000x256.Idx) : k0_pay1 (F := Ideal) j = 0 := by
  unfold k0_pay1
  unfold shapeCast
  rw [broadcast_apply]
  exact Ideal.ofBits_zero_f32

/-- The counts' reset value is zero everywhere. -/
theorem zeroCounts_apply [Facts] (j : S1x1x1000.Idx) : k0_pay2 (F := Ideal) j = 0 := by
  unfold k0_pay2
  unfold shapeCast
  rw [broadcast_apply]
  exact Ideal.ofBits_zero_f32

end Cert.KernelIdeal.Gen

end
-- ==== Proof.KernelAccum.lean ====
/-
  What the kernel's two output arrays hold after the region, over the extended reals.

  The grid has 64 points: 2 halves of 32 steps. Point t = 32 q + s fetches block t of the features (rows 4096 t … 4096 t + 4095)
  and of the label column, and works on the output blocks of half q, which are written back after the half's last
  point (s = 31).
    * One point's contribution to entry (k, d) of the sums is the sum of the features (·, d) of the block's samples of class k
      (blockAdd); to entry k of the counts, their number (blockCount).
    * At s = 0 the running block is zero plus the point's contribution (sums_reset), at s > 0 what the point before left plus
      the point's contribution (sums_succ): so after s = 31 it holds the contributions of the half's 32 blocks
      (half_sums: an accumulator that adds one term per step holds their sum).
    * The block written back after point 32 q + 31 is slab q of the output array, and the two slabs cover it: the sums'
      array [2, 1000, 256] ends at sumsArr, the counts' [2, 1, 1000] at countsArr (final_sums, final_counts).
    * The host then adds the two slabs. Half q, step s, place r is sample (32 q + s) · 4096 + r, and every sample is of
      this form exactly once, so the total is the sum over all 262144 samples: segSum and segCount of the launch arrays
      (sums_total, counts_total). Only commutativity and associativity of + are used.
-/
import proofs.«402248_j17849884082283_1_alg».proof.Proof.Gen.KernelIdeal.Frame
import proofs.«402248_j17849884082283_1_alg».proof.Proof.KernelPieces
import proofs.«402248_j17849884082283_1_alg».proof.Proof.KernelPayload
import proofs.«402248_j17849884082283_1_alg».proof.Proof.SegSpec
import proofs.«402248_j17849884082283_1_alg».proof.Proof.LibBlockSum
import Idealize.ShloMosaic.Lib.Pipeline.Value
import Idealize.ShloMosaic.Lib.StableHlo.Run
import Idealize.ShloMosaic.Lib.Tactic

noncomputable section

open scoped BigOperators

namespace Cert.KernelIdeal.SegValue

open Idealize.ShloMosaic Idealize.ShloMosaic.TcCoe Idealize.ShloMosaic.ValueIdx Idealize.SL.Sem
open Idealize.ShloMosaic.Pipeline (Dat)
open Cert.KernelIdeal Cert.KernelIdeal.Gen Cert.SegSpec

variable (m : (ℓ : Loc nD τ sig) → Buf (Elt Ideal) ℓ)

/-- The grid has 64 points: 2 halves of 32 steps. -/
theorem N64 : cfg0.N = 64 := N_0

/-- The feature array and the label column as the region finds them, and their blocks at a point, by their literal types. -/
abbrev zarr (c : Dev nD) : Vec Ideal S262144x256 .f32 := V m c main_arg0
abbrev ycol (c : Dev nD) : Vec Ideal S262144x1 .i32 := V m c main_v0
abbrev zblk (c : Dev nD) (t : Fin cfg0.N) : Vec Ideal S4096x256 .f32 := iblk m c 0 t
abbrev yblk (c : Dev nD) (t : Fin cfg0.N) : Vec Ideal S4096x1 .i32 := iblk m c 1 t

/-- Point t fetches block t of the features and of the labels. -/
theorem in_index : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Point t's output blocks are those of its half t / 32. -/
theorem out_index : ∀ t : Fin cfg0.N, win0_2.index t 0 = t.val / 32 ∧ win0_2.index t 1 = 0 ∧ win0_2.index t 2 = 0
    ∧ win0_3.index t 0 = t.val / 32 ∧ win0_3.index t 1 = 0 ∧ win0_3.index t 2 = 0 :=
  (by decide +kernel : ∀ t : Fin grid0.N, win0_2.index t 0 = t.val / 32 ∧ win0_2.index t 1 = 0 ∧ win0_2.index t 2 = 0
    ∧ win0_3.index t 0 = t.val / 32 ∧ win0_3.index t 1 = 0 ∧ win0_3.index t 2 = 0)

/-- Row r of point t's feature block is row t · 4096 + r of the feature array. -/
theorem zblk_apply (c : Dev nD) (t : Fin cfg0.N) (r : Fin 4096) (d : Fin 256) (n : Fin 262144)
    (hn : n.val = t.val * 4096 + r.val) : zblk m c t (ix2 r d) = zarr m c (ix2 n d) := by
  show iblk m c 0 t (ix2 r d) = V m c main_arg0 (ix2 n d)
  unfold iblk
  rw [View.read_apply]
  show V m c main_arg0 _ = V m c main_arg0 _
  congr 1
  funext a
  apply Fin.ext
  match a with
  | ⟨0, _⟩ => show win0_0.index t 0 * 4096 + 1 * r.val = n.val; rw [(in_index t).1]; omega
  | ⟨1, _⟩ => show win0_0.index t 1 * 256 + 1 * d.val = d.val; rw [(in_index t).2.1]; omega

/-- Row r of point t's label block is row t · 4096 + r of the label column. -/
theorem yblk_apply (c : Dev nD) (t : Fin cfg0.N) (r : Fin 4096) (n : Fin 262144)
    (hn : n.val = t.val * 4096 + r.val) : yblk m c t (ix2 r (0 : Fin 1)) = ycol m c (ix2 n (0 : Fin 1)) := by
  show iblk m c 1 t (ix2 r (0 : Fin 1)) = V m c main_v0 (ix2 n (0 : Fin 1))
  unfold iblk
  rw [View.read_apply]
  show V m c main_v0 _ = V m c main_v0 _
  congr 1
  funext a
  apply Fin.ext
  match a with
  | ⟨0, _⟩ => show win0_1.index t 0 * 4096 + 1 * r.val = n.val; rw [(in_index t).2.2.1]; omega
  | ⟨1, _⟩ => show win0_1.index t 1 * 1 + 1 * 0 = 0; rw [(in_index t).2.2.2]

/-- The label column is the label vector laid out as a column. -/
theorem ycol_apply (c : Dev nD) (n : Fin 262144) :
    ycol m c (ix2 n (0 : Fin 1)) = (m ((c : Thread nD τ).loc main_arg1) : IVec S262144 32) (ix1 n) := by
  have e : (V m c main_v0 : S262144x1.Idx → BitVec 32)
      = shapeCast S262144x1 (m ((c : Thread nD τ).loc main_arg1) : IVec S262144 32) shapeCasts_S262144_S262144x1 := by
    show StableHlo.after hostOps0 (fun b => m (c, b)) (Proc.devRef .tc main_v0) = _
    after_results
    rfl
  show V m c main_v0 (ix2 n (0 : Fin 1)) = _
  rw [e]
  exact shapeCast_apply _ _ (ix2 n (0 : Fin 1)) (ix1 n) (by
    rw [Shape.rowMajor_val_one, Shape.rowMajor_val_two]; simp)

/-! ## One step's contribution, and the running blocks after each point -/

/-- Point (q, s) of the grid, as a number below the number of points. -/
theorem lt_N (q : Fin 2) (s : ℕ) (hs : s < 32) : q.val * 32 + s < cfg0.N := by
  have := q.isLt; rw [N64]; omega

/-- What point n's block adds to entry (k, d) of the sums: the features (·, d) of its samples of class k. -/
def blockAdd (c : Dev nD) (k : Fin 1000) (d : Fin 256) (n : ℕ) (h : n < cfg0.N) : EReal :=
  ∑ r : Fin 4096, if (yblk m c ⟨n, h⟩ (ix2 r (0 : Fin 1))).toInt = (k.val : ℤ) then zblk m c ⟨n, h⟩ (ix2 r d) else 0

/-- What point n's block adds to entry k of the counts: the number of its samples of class k. -/
def blockCount (c : Dev nD) (k : Fin 1000) (n : ℕ) (h : n < cfg0.N) : EReal :=
  ∑ r : Fin 4096, if (yblk m c ⟨n, h⟩ (ix2 r (0 : Fin 1))).toInt = (k.val : ℤ) then (1 : EReal) else 0

/-- At the first point of a half the sums' block is zero plus the point's contribution. -/
theorem sums_reset (c : Dev nD) (k : Fin 1000) (d : Fin 256) (n : ℕ) (h : n < cfg0.N) (h0 : n % 32 = 0) :
    (outsAt0 m c n h).1 (ix3 (0 : Fin 1) k d) = 0 + blockAdd m c k d n h := by
  rw [outsAt0_A m c ⟨n, h⟩ h0]
  dsimp only
  refine (congrFun (out0_A_2_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0)
    (zblk m c ⟨n, h⟩) (yblk m c ⟨n, h⟩)) (ix3 (0 : Fin 1) k d)).trans ?_
  refine (sums_step_apply (yblk m c ⟨n, h⟩) (zblk m c ⟨n, h⟩) (k0_pay1 (F := Ideal)) k d).trans ?_
  rw [zeroSums_apply]
  rfl

/-- At every other point it is what the point before left plus the point's contribution. -/
theorem sums_succ (c : Dev nD) (k : Fin 1000) (d : Fin 256) (n : ℕ) (h : n + 1 < cfg0.N) (hB : ¬(n + 1) % 32 = 0) :
    (outsAt0 m c (n + 1) h).1 (ix3 (0 : Fin 1) k d)
      = (outsAt0 m c n (Nat.lt_of_succ_lt h)).1 (ix3 (0 : Fin 1) k d) + blockAdd m c k d (n + 1) h := by
  rw [outsAt0_B m c ⟨n + 1, h⟩ hB]
  dsimp only
  refine (congrFun (out0_B_2_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hB ((hcond0_0 ⟨n + 1, h⟩).mp hh))
    (zblk m c ⟨n + 1, h⟩) (yblk m c ⟨n + 1, h⟩) (outsAt0 m c n (Nat.lt_of_succ_lt h)).1 (outsAt0 m c n (Nat.lt_of_succ_lt h)).2)
    (ix3 (0 : Fin 1) k d)).trans ?_
  exact sums_step_apply (yblk m c ⟨n + 1, h⟩) (zblk m c ⟨n + 1, h⟩) (outsAt0 m c n (Nat.lt_of_succ_lt h)).1 k d

/-- The same for the counts' block. -/
theorem counts_reset (c : Dev nD) (k : Fin 1000) (n : ℕ) (h : n < cfg0.N) (h0 : n % 32 = 0) :
    (outsAt0 m c n h).2 (ix3 (0 : Fin 1) (0 : Fin 1) k) = 0 + blockCount m c k n h := by
  rw [outsAt0_A m c ⟨n, h⟩ h0]
  dsimp only
  refine (congrFun (out0_A_3_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr h0)
    (zblk m c ⟨n, h⟩) (yblk m c ⟨n, h⟩)) (ix3 (0 : Fin 1) (0 : Fin 1) k)).trans ?_
  refine (counts_step_apply (yblk m c ⟨n, h⟩) (k0_pay2 (F := Ideal)) k).trans ?_
  rw [zeroCounts_apply]
  rfl

theorem counts_succ (c : Dev nD) (k : Fin 1000) (n : ℕ) (h : n + 1 < cfg0.N) (hB : ¬(n + 1) % 32 = 0) :
    (outsAt0 m c (n + 1) h).2 (ix3 (0 : Fin 1) (0 : Fin 1) k)
      = (outsAt0 m c n (Nat.lt_of_succ_lt h)).2 (ix3 (0 : Fin 1) (0 : Fin 1) k) + blockCount m c k (n + 1) h := by
  rw [outsAt0_B m c ⟨n + 1, h⟩ hB]
  dsimp only
  refine (congrFun (out0_B_3_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hB ((hcond0_0 ⟨n + 1, h⟩).mp hh))
    (zblk m c ⟨n + 1, h⟩) (yblk m c ⟨n + 1, h⟩) (outsAt0 m c n (Nat.lt_of_succ_lt h)).1 (outsAt0 m c n (Nat.lt_of_succ_lt h)).2)
    (ix3 (0 : Fin 1) (0 : Fin 1) k)).trans ?_
  exact counts_step_apply (yblk m c ⟨n + 1, h⟩) (outsAt0 m c n (Nat.lt_of_succ_lt h)).2 k

/-- After the last point of half q the sums' block holds the contributions of the half's 32 points. -/
theorem half_sums (c : Dev nD) (k : Fin 1000) (d : Fin 256) (q : Fin 2) :
    (outsAt0 m c (q.val * 32 + 31) (lt_N q 31 (by decide))).1 (ix3 (0 : Fin 1) k d)
      = ∑ s : Fin 32, blockAdd m c k d (q.val * 32 + s.val) (lt_N q s.val s.isLt) :=
  Cert.BlockSum.chain_last 31
    (fun s hs => (outsAt0 m c (q.val * 32 + s) (lt_N q s hs)).1 (ix3 (0 : Fin 1) k d))
    (fun s hs => blockAdd m c k d (q.val * 32 + s) (lt_N q s hs))
    (fun hs => sums_reset m c k d (q.val * 32 + 0) (lt_N q 0 hs) (by omega))
    (fun s hs => sums_succ m c k d (q.val * 32 + s) (lt_N q (s + 1) hs) (by omega))

/-- After the last point of half q the counts' block holds the counts of the half's 32 points. -/
theorem half_counts (c : Dev nD) (k : Fin 1000) (q : Fin 2) :
    (outsAt0 m c (q.val * 32 + 31) (lt_N q 31 (by decide))).2 (ix3 (0 : Fin 1) (0 : Fin 1) k)
      = ∑ s : Fin 32, blockCount m c k (q.val * 32 + s.val) (lt_N q s.val s.isLt) :=
  Cert.BlockSum.chain_last 31
    (fun s hs => (outsAt0 m c (q.val * 32 + s) (lt_N q s hs)).2 (ix3 (0 : Fin 1) (0 : Fin 1) k))
    (fun s hs => blockCount m c k (q.val * 32 + s) (lt_N q s hs))
    (fun hs => counts_reset m c k (q.val * 32 + 0) (lt_N q 0 hs) (by omega))
    (fun s hs => counts_succ m c k (q.val * 32 + s) (lt_N q (s + 1) hs) (by omega))

/-! ## The two output arrays after the region -/

/-- The running blocks at equal point numbers are equal. -/
theorem outsAt0_congr (c : Dev nD) {n n' : ℕ} (e : n = n') (h : n < cfg0.N) (h' : n' < cfg0.N) :
    outsAt0 m c n h = outsAt0 m c n' h' := by subst e; rfl

/-- What the sums' array [2, 1000, 256] ends holding: entry (q, k, d) is the contribution of half q's 32 blocks. -/
def sumsArr (c : Dev nD) : S2x1000x256.Idx → EReal :=
  fun j => ∑ s : Fin 32, blockAdd m c (j 1) (j 2) ((j 0).val * 32 + s.val) (lt_N (j 0) s.val s.isLt)

/-- What the counts' array [2, 1, 1000] ends holding: entry (q, 0, k) is the count over half q's 32 blocks. -/
def countsArr (c : Dev nD) : S2x1x1000.Idx → EReal :=
  fun j => ∑ s : Fin 32, blockCount m c (j 2) ((j 0).val * 32 + s.val) (lt_N (j 0) s.val s.isLt)

/-- The sums' block after a half's last point n (n ≡ 31 mod 32), entry by entry. -/
theorem sums_entry (c : Dev nD) (n : ℕ) (h : n < cfg0.N) (h31 : n % 32 = 31) (hq : n / 32 < 2) (y : S1x1000x256.Idx) :
    (outsAt0 m c n h).1 y
      = ∑ s : Fin 32, blockAdd m c (y 1) (y 2) (n / 32 * 32 + s.val) (lt_N ⟨n / 32, hq⟩ s.val s.isLt) := by
  have hy : y = ix3 (0 : Fin 1) (y 1) (y 2) := by
    funext a
    match a with
    | ⟨0, _⟩ => exact Fin.ext (by have h0 : (y 0).val < 1 := (y 0).isLt; show (y 0).val = 0; omega)
    | ⟨1, _⟩ => rfl
    | ⟨2, _⟩ => rfl
  refine (congrArg (outsAt0 m c n h).1 hy).trans ?_
  refine (congrArg (fun p : Vec Ideal S1x1000x256 .f32 × Vec Ideal S1x1x1000 .f32 => p.1 (ix3 (0 : Fin 1) (y 1) (y 2)))
    (outsAt0_congr m c (show n = n / 32 * 32 + 31 by omega) h (lt_N ⟨n / 32, hq⟩ 31 (by decide)))).trans ?_
  exact half_sums m c (y 1) (y 2) ⟨n / 32, hq⟩

/-- The counts' block after a half's last point, entry by entry. -/
theorem counts_entry (c : Dev nD) (n : ℕ) (h : n < cfg0.N) (h31 : n % 32 = 31) (hq : n / 32 < 2) (y : S1x1x1000.Idx) :
    (outsAt0 m c n h).2 y
      = ∑ s : Fin 32, blockCount m c (y 2) (n / 32 * 32 + s.val) (lt_N ⟨n / 32, hq⟩ s.val s.isLt) := by
  have hy : y = ix3 (0 : Fin 1) (0 : Fin 1) (y 2) := by
    funext a
    match a with
    | ⟨0, _⟩ => exact Fin.ext (by have h0 : (y 0).val < 1 := (y 0).isLt; show (y 0).val = 0; omega)
    | ⟨1, _⟩ => exact Fin.ext (by have h0 : (y 1).val < 1 := (y 1).isLt; show (y 1).val = 0; omega)
    | ⟨2, _⟩ => rfl
  refine (congrArg (outsAt0 m c n h).2 hy).trans ?_
  refine (congrArg (fun p : Vec Ideal S1x1000x256 .f32 × Vec Ideal S1x1x1000 .f32 => p.2 (ix3 (0 : Fin 1) (0 : Fin 1) (y 2)))
    (outsAt0_congr m c (show n = n / 32 * 32 + 31 by omega) h (lt_N ⟨n / 32, hq⟩ 31 (by decide)))).trans ?_
  exact half_counts m c (y 2) ⟨n / 32, hq⟩

/-- The sums' block is written back after the last point of each half, and what is written is that half's slab of the array. -/
theorem flushed2_eq (c : Dev nD) (t : Fin cfg0.N) (hf : (cfg0.win 2).flush t = true) :
    (dats m 0 c).flushed 2 t = ((cfg0.win 2).blk t).view.read (Elt Ideal) (sumsArr m c) := by
  have h31 : t.val % 32 = 31 := (flush0_2 t).mp hf
  have hN : t.val < 64 := lt_of_lt_of_eq t.isLt (N64)
  have hq : t.val / 32 < 2 := by omega
  show (cfg0.win 2).cut (grid0.coords t) ((dats m 0 c).after 2 t) = _
  rw [after0_2]
  funext y
  rw [View.read_apply]
  refine (sums_entry m c t.val t.isLt h31 hq y).trans ?_
  have he : ((cfg0.win 2).blk t).view.emb y = (ix3 (⟨t.val / 32, hq⟩ : Fin 2) (y 1) (y 2) : S2x1000x256.Idx) := by
    funext a
    apply Fin.ext
    match a with
    | ⟨0, _⟩ =>
      have h0 : (y 0).val < 1 := (y 0).isLt
      show win0_2.index t 0 * 1 + 1 * (y 0).val = t.val / 32
      rw [(out_index t).1]; omega
    | ⟨1, _⟩ => show win0_2.index t 1 * 1000 + 1 * (y 1).val = (y 1).val; rw [(out_index t).2.1]; omega
    | ⟨2, _⟩ => show win0_2.index t 2 * 256 + 1 * (y 2).val = (y 2).val; rw [(out_index t).2.2.1]; omega
  rw [he]
  rfl

/-- The counts' block likewise. -/
theorem flushed3_eq (c : Dev nD) (t : Fin cfg0.N) (hf : (cfg0.win 3).flush t = true) :
    (dats m 0 c).flushed 3 t = ((cfg0.win 3).blk t).view.read (Elt Ideal) (countsArr m c) := by
  have h31 : t.val % 32 = 31 := (flush0_3 t).mp hf
  have hN : t.val < 64 := lt_of_lt_of_eq t.isLt (N64)
  have hq : t.val / 32 < 2 := by omega
  show (cfg0.win 3).cut (grid0.coords t) ((dats m 0 c).after 3 t) = _
  rw [after0_3]
  funext y
  rw [View.read_apply]
  refine (counts_entry m c t.val t.isLt h31 hq y).trans ?_
  have he : ((cfg0.win 3).blk t).view.emb y = (ix3 (⟨t.val / 32, hq⟩ : Fin 2) (0 : Fin 1) (y 2) : S2x1x1000.Idx) := by
    funext a
    apply Fin.ext
    match a with
    | ⟨0, _⟩ =>
      have h0 : (y 0).val < 1 := (y 0).isLt
      show win0_3.index t 0 * 1 + 1 * (y 0).val = t.val / 32
      rw [(out_index t).2.2.2.1]; omega
    | ⟨1, _⟩ =>
      have h0 : (y 1).val < 1 := (y 1).isLt
      show win0_3.index t 1 * 1 + 1 * (y 1).val = 0; rw [(out_index t).2.2.2.2.1]; omega
    | ⟨2, _⟩ => show win0_3.index t 2 * 1000 + 1 * (y 2).val = (y 2).val; rw [(out_index t).2.2.2.2.2]; omega
  rw [he]
  rfl

/-- An index of the sums' array is in point t's block iff each coordinate is in the block's range on its axis. -/
theorem mem_blk2 (t : Fin cfg0.N) (i : S2x1000x256.Idx) :
    i ∈ ((cfg0.win 2).blk t).view.set ↔ ∀ a : Fin 3, win0_2.index t a * S1x1000x256.size a ≤ (i a).val
      ∧ (i a).val < win0_2.index t a * S1x1000x256.size a + S1x1000x256.size a := by
  show i ∈ ((View.whole main_v1_0).slice (win0_2.rect t)).set ↔ _
  rw [View.set_slice_whole, Rect.mem_set_unit]
  exact Iff.rfl

/-- The same for the counts' array. -/
theorem mem_blk3 (t : Fin cfg0.N) (i : S2x1x1000.Idx) :
    i ∈ ((cfg0.win 3).blk t).view.set ↔ ∀ a : Fin 3, win0_3.index t a * S1x1x1000.size a ≤ (i a).val
      ∧ (i a).val < win0_3.index t a * S1x1x1000.size a + S1x1x1000.size a := by
  show i ∈ ((View.whole main_v1_1).slice (win0_3.rect t)).set ↔ _
  rw [View.set_slice_whole, Rect.mem_set_unit]
  exact Iff.rfl

/-- Every entry (q, ·, ·) of the sums' array lies in the block written back after point 32 q + 31. -/
theorem cover2 (i : S2x1000x256.Idx) :
    ∃ t : Fin cfg0.N, (cfg0.win 2).flush t = true ∧ i ∈ ((cfg0.win 2).blk t).view.set := by
  have hi0 : (i 0).val < 2 := (i 0).isLt
  have hi1 : (i 1).val < 1000 := (i 1).isLt
  have hi2 : (i 2).val < 256 := (i 2).isLt
  have hix := out_index ⟨(i 0).val * 32 + 31, lt_N (i 0) 31 (by decide)⟩
  have hdiv : ((i 0).val * 32 + 31) / 32 = (i 0).val := by omega
  refine ⟨⟨(i 0).val * 32 + 31, lt_N (i 0) 31 (by decide)⟩, (flush0_2 _).mpr (by show ((i 0).val * 32 + 31) % 32 = 31; omega), ?_⟩
  rw [mem_blk2]
  intro a
  match a with
  | ⟨0, _⟩ =>
    show win0_2.index _ 0 * 1 ≤ (i 0).val ∧ (i 0).val < win0_2.index _ 0 * 1 + 1
    rw [hix.1]; show _ / 32 * 1 ≤ _ ∧ _ < _ / 32 * 1 + 1; rw [hdiv]; omega
  | ⟨1, _⟩ =>
    show win0_2.index _ 1 * 1000 ≤ (i 1).val ∧ (i 1).val < win0_2.index _ 1 * 1000 + 1000
    rw [hix.2.1]; omega
  | ⟨2, _⟩ =>
    show win0_2.index _ 2 * 256 ≤ (i 2).val ∧ (i 2).val < win0_2.index _ 2 * 256 + 256
    rw [hix.2.2.1]; omega

/-- Every entry (q, 0, ·) of the counts' array lies in the block written back after point 32 q + 31. -/
theorem cover3 (i : S2x1x1000.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1000 := (i 2).isLt
  have hix := out_index ⟨(i 0).val * 32 + 31, lt_N (i 0) 31 (by decide)⟩
  have hdiv : ((i 0).val * 32 + 31) / 32 = (i 0).val := by omega
  refine ⟨⟨(i 0).val * 32 + 31, lt_N (i 0) 31 (by decide)⟩, (flush0_3 _).mpr (by show ((i 0).val * 32 + 31) % 32 = 31; omega), ?_⟩
  rw [mem_blk3]
  intro a
  match a with
  | ⟨0, _⟩ =>
    show win0_3.index _ 0 * 1 ≤ (i 0).val ∧ (i 0).val < win0_3.index _ 0 * 1 + 1
    rw [hix.2.2.2.1]; show _ / 32 * 1 ≤ _ ∧ _ < _ / 32 * 1 + 1; rw [hdiv]; omega
  | ⟨1, _⟩ =>
    show win0_3.index _ 1 * 1 ≤ (i 1).val ∧ (i 1).val < win0_3.index _ 1 * 1 + 1
    rw [hix.2.2.2.2.1]; omega
  | ⟨2, _⟩ =>
    show win0_3.index _ 2 * 1000 ≤ (i 2).val ∧ (i 2).val < win0_3.index _ 2 * 1000 + 1000
    rw [hix.2.2.2.2.2]; omega

/-- So after the region the two output arrays hold the per-half sums and counts. -/
theorem final_sums (c : Dev nD) : (dats m 0 c).arrAt 2 cfg0.N = sumsArr m c :=
  (dats m 0 c).arrAt_eq_of_cover 2 (sumsArr m c) (flushed2_eq m c) cover2

theorem final_counts (c : Dev nD) : (dats m 0 c).arrAt 3 cfg0.N = countsArr m c :=
  (dats m 0 c).arrAt_eq_of_cover 3 (countsArr m c) (flushed3_eq m c) cover3

/-! ## The host's sum over the two halves is the sum over all samples -/

/-- The host's sum of a [2, 1000, 256] array over its first axis, from a zero, read at (k, d). -/
theorem halves_sum_apply (X : FVec Ideal S2x1000x256 .f32) (k : Fin 1000) (d : Fin 256) :
    Host.reduceAdd (F := Ideal) X (constant (F := Ideal) S_ .f32 0x00000000#32) reducesTo_S2x1000x256_S1000x256_d0 h_S_ (ix2 k d)
      = ∑ q : Fin 2, X (ix3 q k d) := by
  have hr : S2x1000x256.Reduces [0] S1000x256 := by decide
  unfold Host.reduceAdd
  rw [Ideal.hostReduceAdd_def]
  refine (Ideal.hostReduceAdd_single reducesTo_S2x1000x256_S1000x256_d0 hr X _ (ix2 k d)).trans ?_
  show Ideal.ofBits .f32 0x00000000#32 + _ = _
  rw [Ideal.ofBits_zero_f32, zero_add]
  refine Finset.sum_congr rfl fun (q : Fin 2) _ => ?_
  congr 1
  funext a
  match a with
  | ⟨0, _⟩ => exact Fin.ext rfl
  | ⟨1, _⟩ => exact Fin.ext rfl
  | ⟨2, _⟩ => exact Fin.ext rfl

/-- The host's sum of a [2, 1, 1000] array over its first axis, from a zero, read at (0, k). -/
theorem halves_count_apply (X : FVec Ideal S2x1x1000 .f32) (k : Fin 1000) :
    Host.reduceAdd (F := Ideal) X (constant (F := Ideal) S_ .f32 0x00000000#32) reducesTo_S2x1x1000_S1x1000_d0 h_S_ (ix2 (0 : Fin 1) k)
      = ∑ q : Fin 2, X (ix3 q (0 : Fin 1) k) := by
  have hr : S2x1x1000.Reduces [0] S1x1000 := by decide
  unfold Host.reduceAdd
  rw [Ideal.hostReduceAdd_def]
  refine (Ideal.hostReduceAdd_single reducesTo_S2x1x1000_S1x1000_d0 hr X _ (ix2 (0 : Fin 1) k)).trans ?_
  show Ideal.ofBits .f32 0x00000000#32 + _ = _
  rw [Ideal.ofBits_zero_f32, zero_add]
  refine Finset.sum_congr rfl fun (q : Fin 2) _ => ?_
  congr 1
  funext a
  match a with
  | ⟨0, _⟩ => exact Fin.ext rfl
  | ⟨1, _⟩ => exact Fin.ext rfl
  | ⟨2, _⟩ => exact Fin.ext rfl

/-- The features and the labels the program was launched with. -/
abbrev zin (c : Dev nD) : FVec Ideal S262144x256 .f32 := m ((c : Thread nD τ).loc main_arg0)
abbrev yin (c : Dev nD) : IVec S262144 32 := m ((c : Thread nD τ).loc main_arg1)

/-- The region finds the feature array as launched. -/
theorem zarr_eq (c : Dev nD) : zarr m c = zin m c := V_main_arg0 m c

/-- Block (q, s)'s contribution to the sums, in terms of the launch arrays: the block's samples are numbers
    (32 q + s) · 4096 + r. -/
theorem blockAdd_eq (c : Dev nD) (k : Fin 1000) (d : Fin 256) (q : Fin 2) (s : Fin 32) :
    blockAdd m c k d (q.val * 32 + s.val) (lt_N q s.val s.isLt)
      = ∑ r : Fin 4096, (fun n : Fin 262144 =>
          if (yin m c (ix1 n)).toInt = (k.val : ℤ) then zin m c (ix2 n d) else 0) (sample (blockOf q s) r) := by
  unfold blockAdd
  refine Finset.sum_congr rfl fun r _ => ?_
  have hn : (sample (blockOf q s) r).val = (q.val * 32 + s.val) * 4096 + r.val := rfl
  rw [yblk_apply m c ⟨q.val * 32 + s.val, lt_N q s.val s.isLt⟩ r (sample (blockOf q s) r) hn,
    zblk_apply m c ⟨q.val * 32 + s.val, lt_N q s.val s.isLt⟩ r d (sample (blockOf q s) r) hn, ycol_apply]
  rw [zarr_eq]

theorem blockCount_eq (c : Dev nD) (k : Fin 1000) (q : Fin 2) (s : Fin 32) :
    blockCount m c k (q.val * 32 + s.val) (lt_N q s.val s.isLt)
      = ∑ r : Fin 4096, (fun n : Fin 262144 =>
          if (yin m c (ix1 n)).toInt = (k.val : ℤ) then (1 : EReal) else 0) (sample (blockOf q s) r) := by
  unfold blockCount
  refine Finset.sum_congr rfl fun r _ => ?_
  have hn : (sample (blockOf q s) r).val = (q.val * 32 + s.val) * 4096 + r.val := rfl
  rw [yblk_apply m c ⟨q.val * 32 + s.val, lt_N q s.val s.isLt⟩ r (sample (blockOf q s) r) hn, ycol_apply]

/-- The two halves' sums added are the per-class sums of all samples. -/
theorem sums_total (c : Dev nD) :
    Host.reduceAdd (F := Ideal) (sumsArr m c) (constant (F := Ideal) S_ .f32 0x00000000#32) reducesTo_S2x1000x256_S1000x256_d0 h_S_
      = segSum (zin m c) (yin m c) := by
  funext j
  obtain ⟨k, d, rfl⟩ : ∃ (k : Fin 1000) (d : Fin 256), j = ix2 k d := ⟨j 0, j 1, eq_ix2 j⟩
  rw [halves_sum_apply]
  show ∑ q : Fin 2, ∑ s : Fin 32, blockAdd m c k d (q.val * 32 + s.val) (lt_N q s.val s.isLt) = _
  refine Eq.trans (Finset.sum_congr rfl fun q _ => Finset.sum_congr rfl fun s _ => blockAdd_eq m c k d q s) ?_
  exact (sum_halves_blocks (fun n : Fin 262144 =>
    if (yin m c (ix1 n)).toInt = (k.val : ℤ) then zin m c (ix2 n d) else 0)).symm

/-- The two halves' counts added, laid out as a vector, are the per-class counts of all samples. -/
theorem counts_total (c : Dev nD) :
    shapeCast S1000 (Host.reduceAdd (F := Ideal) (countsArr m c) (constant (F := Ideal) S_ .f32 0x00000000#32)
        reducesTo_S2x1x1000_S1x1000_d0 h_S_) shapeCasts_S1x1000_S1000
      = segCount (yin m c) := by
  funext j
  obtain ⟨k, rfl⟩ : ∃ k : Fin 1000, j = ix1 k := ⟨j 0, eq_ix1 j⟩
  rw [shapeCast_apply _ _ (ix1 k) (ix2 (0 : Fin 1) k) (by
    rw [Shape.rowMajor_val_one, Shape.rowMajor_val_two]; simp), halves_count_apply]
  show ∑ q : Fin 2, ∑ s : Fin 32, blockCount m c k (q.val * 32 + s.val) (lt_N q s.val s.isLt) = _
  refine Eq.trans (Finset.sum_congr rfl fun q _ => Finset.sum_congr rfl fun s _ => blockCount_eq m c k q s) ?_
  exact (sum_halves_blocks (fun n : Fin 262144 =>
    if (yin m c (ix1 n)).toInt = (k.val : ℤ) then (1 : EReal) else 0)).symm

end Cert.KernelIdeal.SegValue

end
-- ==== Proof.HostTail.lean ====
/-
  What both programs do with the per-class sums and counts: the tail they share, as ONE function.

  From the sums ss [1000, 256], the counts cnt [1000], the old prototypes protos [1000, 256] and the old mask [1000]:
      present c  =  cnt c > 0
      mean       =  ss / max(cnt, 1)                    (each row divided by its class's count, at least 1)
      zc         =  mean / max(‖mean‖ row by row, 1e-12)
      ema        =  the same row normalisation of  0.99 · protos + 0.01 · zc
      new protos =  where present: (where mask: ema, else zc), else protos
      new mask   =  mask or present.
  The kernel program and the reference spell these operations with the same host operations and the same four float
  literals, so each program's result is this function of ITS sums and counts, by unfolding alone; nothing below ever
  opens it. It is stated at any float instance.
-/
import proofs.«402248_j17849884082283_1_alg».proof.KernelIdeal

noncomputable section

namespace Cert.KernelIdeal

open Idealize.ShloMosaic Idealize.SL.Sem
open Facts₀ Facts

variable {F : FTy → Type} [FloatOps F] [Facts]

/-- x divided, row by row, by the larger of the row's Euclidean norm and 1e-12. -/
def rowNormalize (x : FVec F S1000x256 .f32) : FVec F S1000x256 .f32 :=
  Host.divf x (broadcastInDim S1000x256 ![0, 1] bcast_S1000x1_S1000x256_0_1
    (maximumf
      (Host.sqrt (broadcastInDim S1000x1 ![0] bcast_S1000_S1000x1_0
        (Host.reduceAdd (mulf x x) (constant S_ .f32 0x00000000#32) reducesTo_S1000x256_S1000_d1 h_S_)))
      (broadcastInDim S1000x1 ![] bcast_S_S1000x1 (constant S_ .f32 0x2B8CBCCC#32))))

/-- Which classes occur: the count is above zero. -/
def present (cnt : FVec F S1000 .f32) : IVec S1000 1 :=
  cmpf (F := F) .ogt cnt (broadcastInDim S1000 ![] bcast_S_S1000 (constant S_ .f32 0x00000000#32))

/-- Each class's sum divided by its count, the count taken as at least one. -/
def classMean (ss : FVec F S1000x256 .f32) (cnt : FVec F S1000 .f32) : FVec F S1000x256 .f32 :=
  Host.divf ss (broadcastInDim S1000x256 ![0, 1] bcast_S1000x1_S1000x256_0_1
    (broadcastInDim S1000x1 ![0] bcast_S1000_S1000x1_0
      (maximumf cnt (broadcastInDim S1000 ![] bcast_S_S1000 (constant S_ .f32 0x3F800000#32)))))

/-- The normalised moving average 0.99 · protos + 0.01 · zc. -/
def movingAverage (protos zc : FVec F S1000x256 .f32) : FVec F S1000x256 .f32 :=
  rowNormalize (addf (mulf (broadcastInDim S1000x256 ![] bcast_S_S1000x256 (constant S_ .f32 0x3F7D70A4#32)) protos)
    (mulf (broadcastInDim S1000x256 ![] bcast_S_S1000x256 (constant S_ .f32 0x3C23D70A#32)) zc))

/-- The new prototypes. -/
def newProtos (ss : FVec F S1000x256 .f32) (cnt : FVec F S1000 .f32) (protos : FVec F S1000x256 .f32) (mask : IVec S1000 1) :
    FVec F S1000x256 .f32 :=
  select (broadcastInDim S1000x256 ![0, 1] bcast_S1000x1_S1000x256_0_1 (broadcastInDim S1000x1 ![0] bcast_S1000_S1000x1_0 (present cnt)))
    (select (broadcastInDim S1000x256 ![0, 1] bcast_S1000x1_S1000x256_0_1 (broadcastInDim S1000x1 ![0] bcast_S1000_S1000x1_0 mask))
      (movingAverage protos (rowNormalize (classMean ss cnt)))
      (rowNormalize (classMean ss cnt)))
    protos

/-- The new mask. -/
def newMask (cnt : FVec F S1000 .f32) (mask : IVec S1000 1) : IVec S1000 1 :=
  ori mask (present cnt)

end Cert.KernelIdeal

end
-- ==== Proof.KernelValue.lean ====
/-
  The kernel program's run, read: its two results are the shared tail of the per-class sums and counts of all samples.

  After the region the host adds the two halves of each output array (the counts' sum is then laid out as a vector) and runs
  the tail. The tail's operations read the region's two arrays, the old prototypes and the old mask, so each result is
  the tail applied to (the two-half sum of the sums' array, the two-half sum of the counts' array, prototypes, mask), by
  unfolding (tail_protos, tail_mask: stated at any float instance). Over the extended reals the two sums are segSum and
  segCount of the launch arrays, which gives the run's post (run).
-/
import proofs.«402248_j17849884082283_1_alg».proof.Proof.KernelAccum
import proofs.«402248_j17849884082283_1_alg».proof.Proof.HostTail

noncomputable section

namespace Cert.KernelIdeal.SegValue

open Idealize.ShloMosaic Idealize.ShloMosaic.TcCoe Idealize.ShloMosaic.ValueIdx Idealize.SL.Sem
open Idealize.ShloMosaic.Pipeline (Dat)
open Cert.KernelIdeal Cert.KernelIdeal.Gen Cert.SegSpec

section AnyInstance

variable {F : FTy → Type} [FloatOps F]
variable (m : (ℓ : Loc nD τ sig) → Buf (Elt F) ℓ)

/-- After the region, the sums' and the counts' array are what the pipeline left, and the old prototypes and mask are
    as launched. -/
theorem tail_sumsArr (c : Dev nD) :
    Pipeline.withArrays (cfgs 0).spec c (V0 m c) (fun w => (dats m 0 c).arrAt w (cfgs 0).N) (Proc.devRef .tc main_v1_0)
      = (dats m 0 c).arrAt 2 cfg0.N :=
  Pipeline.withArrays_arr spec0 launch0.win.arr_inj c _ _ 2

theorem tail_countsArr (c : Dev nD) :
    Pipeline.withArrays (cfgs 0).spec c (V0 m c) (fun w => (dats m 0 c).arrAt w (cfgs 0).N) (Proc.devRef .tc main_v1_1)
      = (dats m 0 c).arrAt 3 cfg0.N :=
  Pipeline.withArrays_arr spec0 launch0.win.arr_inj c _ _ 3

theorem tail_protosIn (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

theorem tail_maskIn (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- The two-half sums the tail starts from. -/
abbrev sumsOf (c : Dev nD) : FVec F S1000x256 .f32 :=
  Host.reduceAdd ((dats m 0 c).arrAt 2 cfg0.N : FVec F S2x1000x256 .f32) (constant S_ .f32 0x00000000#32)
    reducesTo_S2x1000x256_S1000x256_d0 h_S_

abbrev countsOf (c : Dev nD) : FVec F S1000 .f32 :=
  fun i => shapeCast S1000 (Host.reduceAdd ((dats m 0 c).arrAt 3 cfg0.N : FVec F S2x1x1000 .f32) (constant S_ .f32 0x00000000#32)
    reducesTo_S2x1x1000_S1x1000_d0 h_S_) shapeCasts_S1x1000_S1000 i

set_option maxRecDepth 8192 in
set_option maxHeartbeats 2000000 in
/-- The second result is the new mask of the counts. -/
theorem tail_mask (c : Dev nD) :
    Pipeline.afterTail₀ cfgs (dats m) 0 (V0 m) [hostOps1, hostOps1_1, hostOps1_2, hostOps1_3, hostOps1_4] c main_v37
      = newMask (countsOf m c) (m ((c : Thread nD τ).loc main_arg3)) := by
  unfold Pipeline.afterTail₀
  simp only [hostOps1, hostOps1_1, hostOps1_2, hostOps1_3, hostOps1_4, List.flatten_cons, List.flatten_nil, List.append_nil,
    List.cons_append, List.nil_append]
  after_results_simp
  rw [tail_countsArr, tail_maskIn]
  rfl

set_option maxRecDepth 8192 in
set_option maxHeartbeats 2000000 in
/-- The first result is the new prototypes of the sums and the counts. -/
theorem tail_protos (c : Dev nD) :
    Pipeline.afterTail₀ cfgs (dats m) 0 (V0 m) [hostOps1, hostOps1_1, hostOps1_2, hostOps1_3, hostOps1_4] c main_v36
      = newProtos (sumsOf m c) (countsOf m c) (m ((c : Thread nD τ).loc main_arg2)) (m ((c : Thread nD τ).loc main_arg3)) := by
  unfold Pipeline.afterTail₀
  simp only [hostOps1, hostOps1_1, hostOps1_2, hostOps1_3, hostOps1_4, List.flatten_cons, List.flatten_nil, List.append_nil,
    List.cons_append, List.nil_append]
  after_results_simp
  rw [tail_sumsArr, tail_countsArr, tail_protosIn, tail_maskIn]
  simp only [StableHlo.TRef.ofBuf, StableHlo.TRef.toBuf, cast_eq]
  rfl

end AnyInstance

/-! ## Over the extended reals -/

variable (m : (ℓ : Loc nD τ sig) → Buf (Elt Ideal) ℓ) (ρ : Dev nD → PrngReg)

theorem sumsOf_eq (c : Dev nD) : sumsOf m c = segSum (zin m c) (yin m c) := by
  show Host.reduceAdd (F := Ideal) ((dats m 0 c).arrAt 2 cfg0.N) _ _ _ = _
  rw [final_sums]
  exact sums_total m c

theorem countsOf_eq (c : Dev nD) : countsOf m c = segCount (yin m c) := by
  show (fun i => shapeCast S1000 (Host.reduceAdd (F := Ideal) ((dats m 0 c).arrAt 3 cfg0.N) _ _ _) _ i) = _
  rw [final_counts]
  exact counts_total m c

/-- Every weakly fair execution of the kernel program terminates with the new prototypes and the new mask of the
    per-class sums and counts of the launch arrays, the arguments unchanged. -/
theorem run : θ_run defs (onTc (τ := τ) (main (F := Ideal))) ⟨m, fun _ => 0, ρ⟩ fun r => ∀ c : Dev nD,
      r.2.mem ((c : Thread nD τ).loc main_v36)
        = newProtos (F := Ideal) (segSum (zin m c) (yin m c)) (segCount (yin m c)) (m ((c : Thread nD τ).loc main_arg2)) (m ((c : Thread nD τ).loc main_arg3))
      ∧ r.2.mem ((c : Thread nD τ).loc main_v37) = newMask (F := Ideal) (segCount (yin m c)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v36 (Pipeline.mem_restRefs_of main_v36 (by decide) (by decide))).trans
        ((tail_protos m c).trans (by rw [sumsOf_eq, countsOf_eq])),
      ((h c).2 main_v37 (Pipeline.mem_restRefs_of main_v37 (by decide) (by decide))).trans
        ((tail_mask m c).trans (by rw [countsOf_eq])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.SegValue

end
-- ==== Proof.LibScatterRows.lean ====
/-
  General lemma: the host's accumulating float scatter of whole rows (a segment sum: every update row is added into the operand
  row its index names), read at an entry, over the extended reals. The operand is [N, C] (or [N, A, B]); the updates are [E, C]
  (or [E, A, B]), one row per scatter index; the scatter indices are a column [E, 1] of row numbers (update_window_dims the trailing axes, inserted_window_dims [0],
  scatter_dims_to_operand_dims [0], index_vector_dim 1). Entry (n, j) of the result is the operand's entry plus the sum, over the
  updates e whose row number read as a signed integer is n, of the update's entry (e, j); a row number outside [0, N) lands nowhere.

  The road: an update index lands at a given operand index exactly when, on every operand axis, the window's start plus the
  window coordinate is that index's coordinate (the in-range test is then automatic). For these dimension numbers the start is
  the row number on axis 0 and zero elsewhere, and the window coordinate is zero on axis 0 and the update's own trailing
  coordinate elsewhere. So update (e, j') lands at (n, j) exactly when row number e is n and j' = j, and the sum over the landing
  update indices is re-indexed by e alone.
-/
import Idealize.ShloMosaic.PureOps.Ideal
import Idealize.ShloMosaic.PureOps.Contract
import Idealize.ShloMosaic.Lib.ValueIdx

open Idealize.ShloMosaic Idealize.ShloMosaic.ValueIdx

noncomputable section

namespace Cert.Lib.ScatterRows

/-- An update index lands at the operand index `i` exactly when, on every operand axis, the window's start (a signed integer)
    plus the window coordinate is `i`'s coordinate: the test that the sum lies inside the operand is then met by itself. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro heq a
      have ha : (d.start j idx a + d.window j a).toNat = (i a).val :=
        congrArg Fin.val (congrFun (Option.some.inj heq) a)
      have h0 := (h a).1
      omega
    · intro hall
      refine congrArg some (funext fun a => Fin.ext ?_)
      show (d.start j idx a + d.window j a).toNat = (i a).val
      have := hall a
      omega
  · rw [dif_neg h]
    constructor
    · intro heq
      cases heq
    · intro hall
      refine absurd (fun a => ?_) h
      have h1 := hall a
      have h2 : (i a).val < s.size a := (i a).isLt
      constructor <;> omega

/-- The dimension numbers of a whole-row scatter into `[N, C]` by a column `[E, 1]` of row numbers from `[E, C]`. -/
abbrev rowDims2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a whole-row scatter into `[N, A, B]` by a column `[E, 1]` of row numbers from `[E, A, B]`. -/
abbrev rowDims3 (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-! ## Rank 2 -/

section Rank2
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the window of update (e, j') starts at the row number `idx[e, 0]`, read signed. -/
theorem start2_row :
    (rowDims2 N E C wf).start (ix2 e j') idx (0 : Fin 2) = (idx (ix2 e (0 : Fin 1))).toInt := by
  unfold ScatterDims.start
  rw [dif_pos (show (0 : Fin 2) ∈ (rowDims2 N E C wf).scatterDimsToOperandDims from List.mem_singleton.mpr rfl)]
  have hsi : (rowDims2 N E C wf).siIdx (ix2 e j') ⟨List.idxOf (0 : Fin 2) (rowDims2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter indices do not address, the window starts at 0. -/
theorem start2_col :
    (rowDims2 N E C wf).start (ix2 e j') idx (1 : Fin 2) = 0 := by
  unfold ScatterDims.start
  rw [dif_neg (show (1 : Fin 2) ∉ (rowDims2 N E C wf).scatterDimsToOperandDims from
    fun h => absurd (congrArg Fin.val (List.mem_singleton.mp h)) Nat.one_ne_zero)]

/-- The row axis is an inserted window axis: the window coordinate there is 0. -/
theorem window2_row :
    (rowDims2 N E C wf).window (ix2 e j') (0 : Fin 2) = 0 := by
  unfold ScatterDims.window
  rw [dif_neg (show (0 : Fin 2) ∉ (rowDims2 N E C wf).sKept from (by decide : (0 : Fin 2) ∉ ([1] : List (Fin 2))))]

/-- The column axis carries the update's column unchanged. -/
theorem window2_col :
    (rowDims2 N E C wf).window (ix2 e j') (1 : Fin 2) = j'.val := by
  unfold ScatterDims.window
  rw [dif_pos (show (1 : Fin 2) ∈ (rowDims2 N E C wf).sKept from (by decide : (1 : Fin 2) ∈ ([1] : List (Fin 2))))]
  rfl

/-- Update (e, j') lands at (n, j) exactly when its row number, read signed, is n and its column is j. -/
theorem resultIdx2_eq_some_iff (n : Fin N) (j : Fin C) :
    (rowDims2 N E C wf).resultIdx? (ix2 e j') idx = some (ix2 n j)
      ↔ (idx (ix2 e (0 : Fin 1))).toInt = (n.val : Int) ∧ j' = j := by
  rw [resultIdx?_eq_some_iff]
  constructor
  · intro h
    have h0 : (rowDims2 N E C wf).start (ix2 e j') idx (0 : Fin 2)
        + ((rowDims2 N E C wf).window (ix2 e j') (0 : Fin 2) : Int) = (n.val : Int) := h 0
    have h1 : (rowDims2 N E C wf).start (ix2 e j') idx (1 : Fin 2)
        + ((rowDims2 N E C wf).window (ix2 e j') (1 : Fin 2) : Int) = (j.val : Int) := h 1
    rw [start2_row, window2_row] at h0
    rw [start2_col, window2_col] at h1
    exact ⟨by omega, Fin.ext (by omega)⟩
  · rintro ⟨hz, rfl⟩ a
    match a with
    | ⟨0, _⟩ =>
      show (rowDims2 N E C wf).start (ix2 e j') idx (0 : Fin 2)
        + ((rowDims2 N E C wf).window (ix2 e j') (0 : Fin 2) : Int) = (n.val : Int)
      rw [start2_row, window2_row]; omega
    | ⟨1, _⟩ =>
      show (rowDims2 N E C wf).start (ix2 e j') idx (1 : Fin 2)
        + ((rowDims2 N E C wf).window (ix2 e j') (1 : Fin 2) : Int) = (j'.val : Int)
      rw [start2_col, window2_col]; omega

end Rank2

/-- The row scatter-add into a matrix, read at (n, j). -/
theorem scatterAdd_rows2_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (j : Fin C) :
    Host.scatterAdd (rowDims2 N E C wf) x idx upd (ix2 n j)
      = x (ix2 n j) + ∑ e ∈ Finset.univ.filter (fun e : Fin E => (idx (ix2 e (0 : Fin 1))).toInt = (n.val : Int)), upd (ix2 e j) := by
  unfold Host.scatterAdd
  rw [Ideal.hostScatterAdd_def]
  unfold Ideal.hostScatterAdd
  refine congrArg (x (ix2 n j) + ·) ?_
  refine Finset.sum_nbij' (fun p => (p 0 : Fin E)) (fun e => ix2 e j) ?_ ?_ ?_ ?_ ?_
  · intro p hp
    obtain ⟨e, j', rfl⟩ : ∃ (e : Fin E) (j' : Fin C), p = ix2 e j' := ⟨p 0, p 1, eq_ix2 p⟩
    exact Finset.mem_filter.mpr ⟨Finset.mem_univ _,
      ((resultIdx2_eq_some_iff wf idx e j' n j).mp (Finset.mem_filter.mp hp).2).1⟩
  · intro e he
    exact Finset.mem_filter.mpr ⟨Finset.mem_univ _,
      (resultIdx2_eq_some_iff wf idx e j n j).mpr ⟨(Finset.mem_filter.mp he).2, rfl⟩⟩
  · intro p hp
    obtain ⟨e, j', rfl⟩ : ∃ (e : Fin E) (j' : Fin C), p = ix2 e j' := ⟨p 0, p 1, eq_ix2 p⟩
    obtain rfl : j' = j := ((resultIdx2_eq_some_iff wf idx e j' n j).mp (Finset.mem_filter.mp hp).2).2
    rfl
  · intro e _
    rfl
  · intro p hp
    obtain ⟨e, j', rfl⟩ : ∃ (e : Fin E) (j' : Fin C), p = ix2 e j' := ⟨p 0, p 1, eq_ix2 p⟩
    obtain rfl : j' = j := ((resultIdx2_eq_some_iff wf idx e j' n j).mp (Finset.mem_filter.mp hp).2).2
    rfl

/-! ## Rank 3 -/

section Rank3
variable {N E A B w : Nat}
  (wf : ScatterDims.WF ⟨3, ![N, A, B]⟩ ⟨2, ![E, 1]⟩ ⟨3, ![E, A, B]⟩ [1, 2] [0] [0] 1)
  (idx : IVec ⟨2, ![E, 1]⟩ w) (e : Fin E) (a' : Fin A) (b' : Fin B)

/-- On the row axis the window of update (e, a', b') starts at the row number `idx[e, 0]`, read signed. -/
theorem start3_row :
    (rowDims3 N E A B wf).start (ix3 e a' b') idx (0 : Fin 3) = (idx (ix2 e (0 : Fin 1))).toInt := by
  unfold ScatterDims.start
  rw [dif_pos (show (0 : Fin 3) ∈ (rowDims3 N E A B wf).scatterDimsToOperandDims from List.mem_singleton.mpr rfl)]
  have hsi : (rowDims3 N E A B wf).siIdx (ix3 e a' b') ⟨List.idxOf (0 : Fin 3) (rowDims3 N E A B wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the second axis, which the scatter indices do not address, the window starts at 0. -/
theorem start3_mid :
    (rowDims3 N E A B wf).start (ix3 e a' b') idx (1 : Fin 3) = 0 := by
  unfold ScatterDims.start
  rw [dif_neg (show (1 : Fin 3) ∉ (rowDims3 N E A B wf).scatterDimsToOperandDims from
    fun h => absurd (congrArg Fin.val (List.mem_singleton.mp h)) Nat.one_ne_zero)]

/-- On the third axis, which the scatter indices do not address, the window starts at 0. -/
theorem start3_last :
    (rowDims3 N E A B wf).start (ix3 e a' b') idx (2 : Fin 3) = 0 := by
  unfold ScatterDims.start
  rw [dif_neg (show (2 : Fin 3) ∉ (rowDims3 N E A B wf).scatterDimsToOperandDims from
    fun h => absurd (congrArg Fin.val (List.mem_singleton.mp h)) (Nat.succ_ne_zero 1))]

/-- The row axis is an inserted window axis: the window coordinate there is 0. -/
theorem window3_row :
    (rowDims3 N E A B wf).window (ix3 e a' b') (0 : Fin 3) = 0 := by
  unfold ScatterDims.window
  rw [dif_neg (show (0 : Fin 3) ∉ (rowDims3 N E A B wf).sKept from (by decide : (0 : Fin 3) ∉ ([1, 2] : List (Fin 3))))]

/-- The second axis carries the update's second coordinate unchanged. -/
theorem window3_mid :
    (rowDims3 N E A B wf).window (ix3 e a' b') (1 : Fin 3) = a'.val := by
  unfold ScatterDims.window
  rw [dif_pos (show (1 : Fin 3) ∈ (rowDims3 N E A B wf).sKept from (by decide : (1 : Fin 3) ∈ ([1, 2] : List (Fin 3))))]
  rfl

/-- The third axis carries the update's third coordinate unchanged. -/
theorem window3_last :
    (rowDims3 N E A B wf).window (ix3 e a' b') (2 : Fin 3) = b'.val := by
  unfold ScatterDims.window
  rw [dif_pos (show (2 : Fin 3) ∈ (rowDims3 N E A B wf).sKept from (by decide : (2 : Fin 3) ∈ ([1, 2] : List (Fin 3))))]
  rfl

/-- Update (e, a', b') lands at (n, a, b) exactly when its row number, read signed, is n and its trailing coordinates are
    (a, b). -/
theorem resultIdx3_eq_some_iff (n : Fin N) (a : Fin A) (b : Fin B) :
    (rowDims3 N E A B wf).resultIdx? (ix3 e a' b') idx = some (ix3 n a b)
      ↔ (idx (ix2 e (0 : Fin 1))).toInt = (n.val : Int) ∧ a' = a ∧ b' = b := by
  rw [resultIdx?_eq_some_iff]
  constructor
  · intro h
    have h0 : (rowDims3 N E A B wf).start (ix3 e a' b') idx (0 : Fin 3)
        + ((rowDims3 N E A B wf).window (ix3 e a' b') (0 : Fin 3) : Int) = (n.val : Int) := h 0
    have h1 : (rowDims3 N E A B wf).start (ix3 e a' b') idx (1 : Fin 3)
        + ((rowDims3 N E A B wf).window (ix3 e a' b') (1 : Fin 3) : Int) = (a.val : Int) := h 1
    have h2 : (rowDims3 N E A B wf).start (ix3 e a' b') idx (2 : Fin 3)
        + ((rowDims3 N E A B wf).window (ix3 e a' b') (2 : Fin 3) : Int) = (b.val : Int) := h 2
    rw [start3_row, window3_row] at h0
    rw [start3_mid, window3_mid] at h1
    rw [start3_last, window3_last] at h2
    exact ⟨by omega, Fin.ext (by omega), Fin.ext (by omega)⟩
  · rintro ⟨hz, rfl, rfl⟩ c
    match c with
    | ⟨0, _⟩ =>
      show (rowDims3 N E A B wf).start (ix3 e a' b') idx (0 : Fin 3)
        + ((rowDims3 N E A B wf).window (ix3 e a' b') (0 : Fin 3) : Int) = (n.val : Int)
      rw [start3_row, window3_row]; omega
    | ⟨1, _⟩ =>
      show (rowDims3 N E A B wf).start (ix3 e a' b') idx (1 : Fin 3)
        + ((rowDims3 N E A B wf).window (ix3 e a' b') (1 : Fin 3) : Int) = (a'.val : Int)
      rw [start3_mid, window3_mid]; omega
    | ⟨2, _⟩ =>
      show (rowDims3 N E A B wf).start (ix3 e a' b') idx (2 : Fin 3)
        + ((rowDims3 N E A B wf).window (ix3 e a' b') (2 : Fin 3) : Int) = (b'.val : Int)
      rw [start3_last, window3_last]; omega

end Rank3

/-- The row scatter-add into a rank-3 array, read at (n, a, b). -/
theorem scatterAdd_rows3_apply {N E A B w : Nat} {φ : FTy}
    (wf : ScatterDims.WF ⟨3, ![N, A, B]⟩ ⟨2, ![E, 1]⟩ ⟨3, ![E, A, B]⟩ [1, 2] [0] [0] 1)
    (x : FVec Ideal ⟨3, ![N, A, B]⟩ φ) (idx : IVec ⟨2, ![E, 1]⟩ w) (upd : FVec Ideal ⟨3, ![E, A, B]⟩ φ)
    (n : Fin N) (a : Fin A) (b : Fin B) :
    Host.scatterAdd (rowDims3 N E A B wf) x idx upd (ix3 n a b)
      = x (ix3 n a b) + ∑ e ∈ Finset.univ.filter (fun e : Fin E => (idx (ix2 e (0 : Fin 1))).toInt = (n.val : Int)), upd (ix3 e a b) := by
  unfold Host.scatterAdd
  rw [Ideal.hostScatterAdd_def]
  unfold Ideal.hostScatterAdd
  refine congrArg (x (ix3 n a b) + ·) ?_
  refine Finset.sum_nbij' (fun p => (p 0 : Fin E)) (fun e => ix3 e a b) ?_ ?_ ?_ ?_ ?_
  · intro p hp
    obtain ⟨e, a', b', rfl⟩ : ∃ (e : Fin E) (a' : Fin A) (b' : Fin B), p = ix3 e a' b' := ⟨p 0, p 1, p 2, eq_ix3 p⟩
    exact Finset.mem_filter.mpr ⟨Finset.mem_univ _,
      ((resultIdx3_eq_some_iff wf idx e a' b' n a b).mp (Finset.mem_filter.mp hp).2).1⟩
  · intro e he
    exact Finset.mem_filter.mpr ⟨Finset.mem_univ _,
      (resultIdx3_eq_some_iff wf idx e a b n a b).mpr ⟨(Finset.mem_filter.mp he).2, rfl, rfl⟩⟩
  · intro p hp
    obtain ⟨e, a', b', rfl⟩ : ∃ (e : Fin E) (a' : Fin A) (b' : Fin B), p = ix3 e a' b' := ⟨p 0, p 1, p 2, eq_ix3 p⟩
    obtain ⟨-, rfl, rfl⟩ := (resultIdx3_eq_some_iff wf idx e a' b' n a b).mp (Finset.mem_filter.mp hp).2
    rfl
  · intro e _
    rfl
  · intro p hp
    obtain ⟨e, a', b', rfl⟩ : ∃ (e : Fin E) (a' : Fin A) (b' : Fin B), p = ix3 e a' b' := ⟨p 0, p 1, p 2, eq_ix3 p⟩
    obtain ⟨-, rfl, rfl⟩ := (resultIdx3_eq_some_iff wf idx e a' b' n a b).mp (Finset.mem_filter.mp hp).2
    rfl

end Cert.Lib.ScatterRows

end
-- ==== Proof.LibScatterCount.lean ====
/-
  An integer scatter-add of scalar updates into a rank-1 array, read at one index as a sum over natural numbers.

  The scatter is a left fold over the update positions: each update is added to the result element its start index
  names, and dropped when that index lies outside the array. Reading the fold at ONE index k, only the updates whose
  start index is k matter, so the element is the operand's element plus the word sum of those updates
  (scatter_apply_fold, for any dimension numbers and any body). For an operand [M], scatter indices [N, 1] and
  updates [N] with the one operand axis inserted, update n lands at the signed value of idx[n, 0] when that lies in
  [0, M) (resultIdx?_eq_some_iff). When the operand's element and all updates together stay below 2 ^ w, no word
  addition wraps, and the word sum is the sum of the natural numbers (scatter_add_toNat).
-/
import Idealize.ShloMosaic.PureOps.ShapeOps
import Idealize.ShloMosaic.Lib.ValueIdx
import Mathlib.Algebra.BigOperators.Fin

noncomputable section

open scoped BigOperators

namespace Cert.LibScatterCount

open Idealize.ShloMosaic Idealize.ShloMosaic.ValueIdx

/-! ## The fold read at one index -/

/-- A scatter read at the index k: the fold, over the update positions in row-major order, that applies the body
    to the running element and the update exactly when the update lands at k. -/
theorem scatter_apply_fold {α : Type} {s si u : Shape} {w : Nat} (d : ScatterDims s si u) (f : α → α → α)
    (x : s.Idx → α) (idx : IVec si w) (upd : u.Idx → α) (k : s.Idx) :
    Host.scatter d f x idx upd k
      = (List.finRange u.numel).foldl (fun a n =>
          if d.resultIdx? (u.rowMajor.symm n) idx = some k then f a (upd (u.rowMajor.symm n)) else a) (x k) := by
  unfold Host.scatter
  generalize List.finRange u.numel = l
  induction l generalizing x with
  | nil => rfl
  | cons n l ih =>
    rw [List.foldl_cons, List.foldl_cons, ih]
    congr 1
    cases hg : d.resultIdx? (u.rowMajor.symm n) idx with
    | none => simp
    | some i =>
      by_cases hki : k = i
      · subst hki; simp
      · have hne : ¬ (some i = some k) := fun h => hki (Option.some.inj h).symm
        simp [hki, hne]

/-! ## Conditional word additions along a list, as natural numbers -/

/-- Adding to a word, along a list, the words v n of the positions that satisfy c: when the word and ALL the v n
    together stay below 2 ^ w nothing wraps, and the result is the word plus the sum of the selected v n. -/
theorem foldl_cond_addi_toNat {ι : Type} {w : Nat} (c : ι → Prop) [DecidablePred c] (v : ι → BitVec w) (l : List ι)
    (a : BitVec w) (hb : a.toNat + (l.map fun n => (v n).toNat).sum < 2 ^ w) :
    (l.foldl (fun a n => if c n then IntOp.addi a (v n) else a) a).toNat
      = a.toNat + (l.map fun n => if c n then (v n).toNat else 0).sum := by
  induction l generalizing a with
  | nil => simp
  | cons n l ih =>
    simp only [List.foldl_cons, List.map_cons, List.sum_cons] at hb ⊢
    by_cases hc : c n
    · have hadd : (IntOp.addi a (v n)).toNat = a.toNat + (v n).toNat := by
        show (a + v n).toNat = _
        rw [BitVec.toNat_add]; exact Nat.mod_eq_of_lt (by omega)
      rw [if_pos hc, if_pos hc, ih _ (by rw [hadd]; omega), hadd]; omega
    · rw [if_neg hc, if_neg hc, ih _ (by omega)]; omega

/-! ## A rank-1 index set, by its coordinate -/

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum along the row-major positions of a rank-1 shape is the sum over the coordinate. -/
theorem sum_finRange_rowMajor {N : Nat} (F : (⟨1, ![N]⟩ : Shape).Idx → ℕ) :
    ((List.finRange (⟨1, ![N]⟩ : Shape).numel).map fun n => F ((⟨1, ![N]⟩ : Shape).rowMajor.symm n)).sum
      = ∑ n : Fin N, F (ix1 n) := by
  rw [← Fin.sum_univ_def, Equiv.sum_comp (⟨1, ![N]⟩ : Shape).rowMajor.symm F,
    ← Equiv.sum_comp (idxEquiv1 (n := N)).symm F]
  rfl

/-! ## Where an update lands: operand [M], scatter indices [N, 1], updates [N], the operand's axis inserted -/

section Landing
variable {M N : Nat} (d : ScatterDims ⟨1, ![M]⟩ ⟨2, ![N, 1]⟩ ⟨1, ![N]⟩)

/-- The operand's one axis is inserted, so no update has a window coordinate on it. -/
theorem window_eq (h2 : d.insertedWindowDims = [0]) (j : (⟨1, ![N]⟩ : Shape).Idx) (a : Fin 1) : d.window j a = 0 := by
  obtain rfl : a = 0 := Subsingleton.elim _ _
  unfold ScatterDims.window
  rw [dif_neg]
  intro ha
  have hm := (List.mem_filter.1 ha).2
  rw [h2] at hm
  simp at hm

/-- The start of update j on the operand's axis is the scatter index idx[j, 0], read signed. -/
theorem start_eq (h1 : d.updateWindowDims = []) (h3 : d.scatterDimsToOperandDims = [0]) (h4 : d.indexVectorDim = 1)
    {w : Nat} (idx : IVec ⟨2, ![N, 1]⟩ w) (j : (⟨1, ![N]⟩ : Shape).Idx) (a : Fin 1) :
    d.start j idx a = (idx (ix2 (j 0) 0)).toInt := by
  obtain rfl : a = 0 := Subsingleton.elim _ _
  obtain ⟨uw, iw, sd, iv, wf⟩ := d
  simp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

/-- Update j lands at k exactly when its scatter index, read signed, is k (an index outside [0, M) lands nowhere). -/
theorem resultIdx?_eq_some_iff (h1 : d.updateWindowDims = []) (h2 : d.insertedWindowDims = [0])
    (h3 : d.scatterDimsToOperandDims = [0]) (h4 : d.indexVectorDim = 1)
    {w : Nat} (idx : IVec ⟨2, ![N, 1]⟩ w) (j : (⟨1, ![N]⟩ : Shape).Idx) (k : Fin M) :
    d.resultIdx? j idx = some (ix1 k) ↔ (idx (ix2 (j 0) 0)).toInt = (k.val : ℤ) := by
  have hs := start_eq d h1 h3 h4 idx j
  have hw := window_eq d h2 j
  unfold ScatterDims.resultIdx?
  split_ifs with h
  · rw [Option.some.injEq]
    constructor
    · intro he
      have h0 := h 0
      have hv : (d.start j idx 0 + (d.window j 0 : ℤ)).toNat = k.val := congrArg Fin.val (congrFun he 0)
      rw [hs 0, hw 0] at hv h0
      omega
    · intro he
      funext a
      obtain rfl : a = 0 := Subsingleton.elim _ _
      refine Fin.ext ?_
      show (d.start j idx 0 + (d.window j 0 : ℤ)).toNat = k.val
      rw [hs 0, hw 0, he]
      simp
  · constructor
    · intro he; cases he
    · intro he
      exfalso
      apply h
      intro a
      obtain rfl : a = 0 := Subsingleton.elim _ _
      rw [hs 0, hw 0, he]
      have hk : ((k.val : ℕ) : ℤ) < ((M : ℕ) : ℤ) := by exact_mod_cast k.isLt
      exact ⟨by simp, by simpa using hk⟩

end Landing

/-! ## The scatter-add read at an index, as natural numbers -/

/-- THE SCATTER-ADD AT k, any word widths: when the operand's element at k and all N updates together stay below
    2 ^ w, the result's element at k is the operand's plus the sum of the updates whose scatter index, read signed,
    is k. -/
theorem scatter_add_toNat_gen {M N w wi : Nat} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec w) (idx : (⟨2, ![N, 1]⟩ : Shape).Idx → BitVec wi)
    (upd : (⟨1, ![N]⟩ : Shape).Idx → BitVec w) (k : Fin M)
    (hb : (x (ix1 k)).toNat + (∑ n : Fin N, (upd (ix1 n)).toNat) < 2 ^ w) :
    (Host.scatter d IntOp.addi x idx upd (ix1 k)).toNat
      = (x (ix1 k)).toNat + ∑ n : Fin N, if (idx (ix2 n 0)).toInt = (k.val : ℤ) then (upd (ix1 n)).toNat else 0 := by
  rw [scatter_apply_fold]
  have hb' : (x (ix1 k)).toNat
      + ((List.finRange (⟨1, ![N]⟩ : Shape).numel).map fun n =>
          (upd ((⟨1, ![N]⟩ : Shape).rowMajor.symm n)).toNat).sum < 2 ^ w := by
    rw [sum_finRange_rowMajor (fun j => (upd j).toNat)]; exact hb
  rw [foldl_cond_addi_toNat
    (fun n => d.resultIdx? ((⟨1, ![N]⟩ : Shape).rowMajor.symm n) idx = some (ix1 k))
    (fun n => upd ((⟨1, ![N]⟩ : Shape).rowMajor.symm n)) _ _ hb']
  congr 1
  rw [sum_finRange_rowMajor (fun j => if d.resultIdx? j idx = some (ix1 k) then (upd j).toNat else 0)]
  refine Finset.sum_congr rfl fun n _ => ?_
  exact if_congr (resultIdx?_eq_some_iff d h1 h2 h3 h4 idx (ix1 n) k) rfl rfl

/-- THE SCATTER-ADD AT k, 32-bit words. -/
theorem scatter_add_toNat {M N : ℕ} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : (⟨2, ![N, 1]⟩ : Shape).Idx → BitVec 32)
    (upd : (⟨1, ![N]⟩ : Shape).Idx → BitVec 32) (k : Fin M)
    (hb : (x (ix1 k)).toNat + (∑ n : Fin N, (upd (ix1 n)).toNat) < 2 ^ 32) :
    (Host.scatter d IntOp.addi x idx upd (ix1 k)).toNat
      = (x (ix1 k)).toNat + ∑ n : Fin N, if (idx (ix2 n 0)).toInt = (k.val : ℤ) then (upd (ix1 n)).toNat else 0 :=
  scatter_add_toNat_gen d h1 h2 h3 h4 x idx upd k hb

end Cert.LibScatterCount

end
-- ==== Proof.LibScatterColumn.lean ====
/-
  A float scatter-add of a column of updates, read at one index over the extended reals.

  Where an update lands, for any dimension numbers: update j lands at the operand index i exactly when, on every
  operand axis, its start index plus its window coordinate is i's coordinate (lands_iff_coords); and a window
  coordinate is always below the operand's extent on its axis (window_lt_size), so on an axis of extent one it is 0.

  The column form: operand [M, 1], scatter indices [N, 1], updates [N, 1]. Update row n carries one signed integer
  idx[n, 0], the operand ROW it is added to; the operand's second axis, of extent one, is the update's window axis.
  A row outside [0, M) is dropped. So the result at (k, 0) is the operand's element plus the sum over all n of the
  update (n, 0) where idx[n, 0] = k, and of zero elsewhere (hostScatterAdd_column_apply). The rank-1 form (operand
  [M], updates [N], no window axis) reads the same way (hostScatterAdd_rank1_apply), so the two forms of one
  segment sum are one sum over n.
-/
import Idealize.ShloMosaic.PureOps.Ideal
import Idealize.ShloMosaic.Lib.ValueIdx
import Mathlib.Algebra.BigOperators.Fin
import proofs.«402248_j17849884082283_1_alg».proof.Proof.LibScatterCount

noncomputable section

open scoped BigOperators

namespace Cert.LibScatterColumn

open Idealize.ShloMosaic Idealize.ShloMosaic.ValueIdx

/-! ## Where an update lands, for any dimension numbers -/

/-- Update j lands at i exactly when start plus window coordinate is i's coordinate on every operand axis. -/
theorem lands_iff_coords {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro he a
      have hv : (d.start j idx a + (d.window j a : ℤ)).toNat = (i a).val := congrArg Fin.val (congrFun he a)
      have h0 := (h a).1
      omega
    · intro he
      funext a
      refine Fin.ext ?_
      show (d.start j idx a + (d.window j a : ℤ)).toNat = (i a).val
      rw [he a]
      simp
  · constructor
    · intro he; cases he
    · intro he
      refine absurd (fun a => ?_) h
      rw [he a]
      exact ⟨by simp, by exact_mod_cast (i a).isLt⟩

/-- A window coordinate lies below the operand's extent on its axis: the update's window axis is no longer than the
    operand axis it goes to. -/
theorem window_lt_size {s si u : Shape} (d : ScatterDims s si u) (j : u.Idx) (a : Fin s.rank) (ha : a ∈ d.sKept) :
    d.window j a < s.size a := by
  unfold ScatterDims.window
  rw [dif_pos ha]
  have hp : d.sKept.idxOf a < d.sKept.length := List.idxOf_lt_length_iff.2 ha
  have h1 := d.window_size ⟨d.sKept.idxOf a, by rw [d.window_length]; exact hp⟩
  simp only [Fin.getElem_fin, Fin.cast_mk, List.getElem_idxOf hp] at h1
  exact lt_of_lt_of_le (Fin.isLt _) h1

/-! ## The column form: operand [M, 1], scatter indices [N, 1], updates [N, 1] -/

section Column
variable {M N : Nat} (d : ScatterDims ⟨2, ![M, 1]⟩ ⟨2, ![N, 1]⟩ ⟨2, ![N, 1]⟩)

/-- No update has a window coordinate other than 0: the row axis is inserted, the other axis has extent one. -/
theorem window_eq (h2 : d.insertedWindowDims = [0]) (j : (⟨2, ![N, 1]⟩ : Shape).Idx) (a : Fin 2) :
    d.window j a = 0 := by
  match a with
  | ⟨0, _⟩ =>
    unfold ScatterDims.window
    rw [dif_neg]
    intro ha
    have hm := (List.mem_filter.1 ha).2
    rw [h2] at hm
    simp at hm
  | ⟨1, h⟩ =>
    have hmem : (⟨1, h⟩ : Fin (⟨2, ![M, 1]⟩ : Shape).rank) ∈ d.sKept :=
      List.mem_filter.2 ⟨List.mem_finRange _, by rw [h2]; simp⟩
    have hlt := window_lt_size d j ⟨1, h⟩ hmem
    have hs : (⟨2, ![M, 1]⟩ : Shape).size ⟨1, h⟩ = 1 := rfl
    omega

/-- The start of update j: on the row axis the scatter index idx[j 0, 0] read signed, on the other axis 0. -/
theorem start_eq (h1 : d.updateWindowDims = [1]) (h3 : d.scatterDimsToOperandDims = [0]) (h4 : d.indexVectorDim = 1)
    {w : Nat} (idx : IVec ⟨2, ![N, 1]⟩ w) (j : (⟨2, ![N, 1]⟩ : Shape).Idx) :
    d.start j idx 0 = (idx (ix2 (j 0) 0)).toInt ∧ d.start j idx 1 = 0 := by
  obtain ⟨uw, iw, sd, iv, wf⟩ := d
  simp only at h1 h3 h4
  subst h1 h3 h4
  constructor
  · unfold ScatterDims.start
    rw [dif_pos (List.mem_singleton.mpr rfl)]
    congr 2
    funext b
    refine Fin.ext ?_
    match b with
    | ⟨0, _⟩ => rfl
    | ⟨1, _⟩ => rfl
  · unfold ScatterDims.start
    rw [dif_neg]
    intro hm
    simp at hm

/-- Update j lands at (k, 0) exactly when its scatter index, read signed, is k. -/
theorem lands_iff (h1 : d.updateWindowDims = [1]) (h2 : d.insertedWindowDims = [0])
    (h3 : d.scatterDimsToOperandDims = [0]) (h4 : d.indexVectorDim = 1)
    {w : Nat} (idx : IVec ⟨2, ![N, 1]⟩ w) (j : (⟨2, ![N, 1]⟩ : Shape).Idx) (k : Fin M) :
    d.resultIdx? j idx = some (ix2 k 0) ↔ (idx (ix2 (j 0) 0)).toInt = (k.val : ℤ) := by
  rw [lands_iff_coords]
  obtain ⟨hs0, hs1⟩ := start_eq d h1 h3 h4 idx j
  have hw := window_eq d h2 j
  constructor
  · intro h
    have h0 : d.start j idx 0 + (d.window j 0 : ℤ) = (k.val : ℤ) := h 0
    rw [hs0, hw 0] at h0
    simpa using h0
  · intro he a
    match a with
    | ⟨0, _⟩ =>
      show d.start j idx 0 + (d.window j 0 : ℤ) = (k.val : ℤ)
      rw [hs0, hw 0, he]; simp
    | ⟨1, _⟩ =>
      show d.start j idx 1 + (d.window j 1 : ℤ) = (((0 : Fin 1)).val : ℤ)
      rw [hs1, hw 1]; simp

/-- THE COLUMN SCATTER-ADD AT (k, 0): the operand's element plus the sum over all update rows n of the update where
    its scatter index is k, zero elsewhere. -/
theorem hostScatterAdd_column_apply (h1 : d.updateWindowDims = [1]) (h2 : d.insertedWindowDims = [0])
    (h3 : d.scatterDimsToOperandDims = [0]) (h4 : d.indexVectorDim = 1)
    {w : Nat} (x : (⟨2, ![M, 1]⟩ : Shape).Idx → EReal) (idx : IVec ⟨2, ![N, 1]⟩ w)
    (upd : (⟨2, ![N, 1]⟩ : Shape).Idx → EReal) (k : Fin M) :
    Ideal.hostScatterAdd d x idx upd (ix2 k 0)
      = x (ix2 k 0) + ∑ n : Fin N, if (idx (ix2 n 0)).toInt = (k.val : ℤ) then upd (ix2 n 0) else 0 := by
  unfold Ideal.hostScatterAdd
  rw [Finset.sum_filter, sum_idx2]
  congr 1
  refine Finset.sum_congr rfl fun n _ => ?_
  rw [Fin.sum_univ_one]
  exact if_congr (lands_iff d h1 h2 h3 h4 idx (ix2 n 0) k) rfl rfl

end Column

/-! ## The rank-1 form: operand [M], scatter indices [N, 1], updates [N] -/

/-- THE RANK-1 SCATTER-ADD AT k: the operand's element plus the sum over all n of the update where its scatter index
    is k, zero elsewhere. -/
theorem hostScatterAdd_rank1_apply {M N : Nat} (d : ScatterDims ⟨1, ![M]⟩ ⟨2, ![N, 1]⟩ ⟨1, ![N]⟩)
    (h1 : d.updateWindowDims = []) (h2 : d.insertedWindowDims = [0])
    (h3 : d.scatterDimsToOperandDims = [0]) (h4 : d.indexVectorDim = 1)
    {w : Nat} (x : (⟨1, ![M]⟩ : Shape).Idx → EReal) (idx : IVec ⟨2, ![N, 1]⟩ w)
    (upd : (⟨1, ![N]⟩ : Shape).Idx → EReal) (k : Fin M) :
    Ideal.hostScatterAdd d x idx upd (ix1 k)
      = x (ix1 k) + ∑ n : Fin N, if (idx (ix2 n 0)).toInt = (k.val : ℤ) then upd (ix1 n) else 0 := by
  unfold Ideal.hostScatterAdd
  rw [Finset.sum_filter, ← Equiv.sum_comp (Cert.LibScatterCount.idxEquiv1 (n := N)).symm]
  congr 1
  refine Finset.sum_congr rfl fun n _ => ?_
  exact if_congr (Cert.LibScatterCount.resultIdx?_eq_some_iff d h1 h2 h3 h4 idx (ix1 n) k) rfl rfl

end Cert.LibScatterColumn

end
-- ==== Proof.RefValue.lean ====
/-
  The reference, read as the per-class sums and counts followed by the shared tail.

  The reference adds every feature row z[n, ·] into row y[n] of a zero [1000, 256] array, and adds a 1 into entry y[n] of a zero
  [1000] array; an update whose label is outside [0, 1000) is dropped. Read at an entry, the first is the zero entry plus the
  sum of z[n, d] over the samples n whose label, read signed, is c: segSum z y (c, d). The second is the zero entry plus the
  number of those samples: segCount y c. (The labels enter as a column [262144, 1] broadcast from the vector y.) The rest of
  the program is the shared tail applied to these two arrays, by unfolding.
-/
import proofs.«402248_j17849884082283_1_alg».proof.Proof.RefRun
import proofs.«402248_j17849884082283_1_alg».proof.Proof.HostTail
import proofs.«402248_j17849884082283_1_alg».proof.Proof.SegSpec
import proofs.«402248_j17849884082283_1_alg».proof.Proof.LibScatterRows
import proofs.«402248_j17849884082283_1_alg».proof.Proof.LibScatterColumn
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Idealize.SL.Sem Cert.SegSpec
open Cert.ReferenceIdeal Cert.ReferenceIdeal.Facts₀

variable [Cert.ReferenceIdeal.Facts]

/-- The word 0x3F800000 is the real number 1. -/
theorem ofBits_one_f32 : Ideal.ofBits .f32 0x3F800000#32 = 1 := by
  simp [Ideal.ofBits, Ideal.ieee, -EReal.coe_mul]; norm_num

/-- The label column at row n is label n. -/
theorem labelColumn_apply (y : IVec S262144 32) (n : Fin 262144) :
    broadcastInDim S262144x1 ![0] bcast_S262144_S262144x1_0 y (ix2 n (0 : Fin 1)) = y (ix1 n) :=
  broadcastInDim_apply _ _ y (ix2 n (0 : Fin 1)) (ix1 n) (by
    intro a; match a with | ⟨0, _⟩ => rfl)

/-- The rows' scatter-add into zeros is the per-class sum. -/
theorem scatterRows_eq (z : FVec Ideal S262144x256 .f32) (y : IVec S262144 32) :
    Host.scatterAdd scatter_S1000x256_S262144x1_S262144x256_1_0_0_1
        (broadcastInDim S1000x256 ![] bcast_S_S1000x256 (constant (F := Ideal) S_ .f32 0x00000000#32))
        (broadcastInDim S262144x1 ![0] bcast_S262144_S262144x1_0 y) z
      = segSum z y := by
  funext j
  obtain ⟨c, d, rfl⟩ : ∃ (c : Fin 1000) (d : Fin 256), j = ix2 c d := ⟨j 0, j 1, eq_ix2 j⟩
  refine (Cert.Lib.ScatterRows.scatterAdd_rows2_apply scatter_S1000x256_S262144x1_S262144x256_1_0_0_1_wf _ _ z c d).trans ?_
  show Ideal.ofBits .f32 0x00000000#32 + _ = _
  rw [Ideal.ofBits_zero_f32, zero_add, Finset.sum_filter]
  refine Finset.sum_congr rfl fun n _ => ?_
  rw [labelColumn_apply]

/-- The ones' scatter-add into zeros is the per-class count. -/
theorem scatterOnes_eq (y : IVec S262144 32) :
    Host.scatterAdd scatter_S1000_S262144x1_S262144_n_0_0_1
        (broadcastInDim S1000 ![] bcast_S_S1000 (constant (F := Ideal) S_ .f32 0x00000000#32))
        (broadcastInDim S262144x1 ![0] bcast_S262144_S262144x1_0 y)
        (broadcastInDim S262144 ![] bcast_S_S262144 (constant (F := Ideal) S_ .f32 0x3F800000#32))
      = segCount y := by
  funext j
  obtain ⟨c, rfl⟩ : ∃ c : Fin 1000, j = ix1 c := ⟨j 0, eq_ix1 j⟩
  unfold Host.scatterAdd
  rw [Ideal.hostScatterAdd_def]
  refine (Cert.LibScatterColumn.hostScatterAdd_rank1_apply scatter_S1000_S262144x1_S262144_n_0_0_1 rfl rfl rfl rfl _ _ _ c).trans ?_
  show Ideal.ofBits .f32 0x00000000#32 + _ = _
  rw [Ideal.ofBits_zero_f32, zero_add]
  refine Finset.sum_congr rfl fun n _ => ?_
  rw [labelColumn_apply]
  show (if _ then Ideal.ofBits .f32 0x3F800000#32 else 0) = _
  rw [ofBits_one_f32]

/-! ## The reference's results are the shared tail of its two scatters -/

section Tail

variable [Cert.KernelIdeal.Facts]

/-- The rows' scatter and the ones' scatter, as the reference prints them, at any float instance. -/
abbrev rowsScatter {F : FTy → Type} [FloatOps F] (z : FVec F S262144x256 .f32) (y : IVec S262144 32) : FVec F S1000x256 .f32 :=
  Host.scatterAdd scatter_S1000x256_S262144x1_S262144x256_1_0_0_1
    (broadcastInDim S1000x256 ![] bcast_S_S1000x256 (constant S_ .f32 0x00000000#32))
    (broadcastInDim S262144x1 ![0] bcast_S262144_S262144x1_0 y) z

abbrev onesScatter {F : FTy → Type} [FloatOps F] (y : IVec S262144 32) : FVec F S1000 .f32 :=
  Host.scatterAdd scatter_S1000_S262144x1_S262144_n_0_0_1
    (broadcastInDim S1000 ![] bcast_S_S1000 (constant S_ .f32 0x00000000#32))
    (broadcastInDim S262144x1 ![0] bcast_S262144_S262144x1_0 y)
    (broadcastInDim S262144 ![] bcast_S_S262144 (constant S_ .f32 0x3F800000#32))

set_option maxRecDepth 8192 in
/-- The first result's composed term is the new prototypes of the two scatters: the same operations in the same order. -/
theorem res_protos {F : FTy → Type} [FloatOps F] (m : (ℓ : Loc nD τ sig) → Buf (Elt F) ℓ) (c : Dev nD) :
    Cert.ReferenceIdeal.ValueP.res_main_v40 m c
      = Cert.KernelIdeal.newProtos (rowsScatter (m ((c.tc : Thread nD τ).loc main_arg0)) (m ((c.tc : Thread nD τ).loc main_arg1)))
          (onesScatter (m ((c.tc : Thread nD τ).loc main_arg1)))
          (m ((c.tc : Thread nD τ).loc main_arg2)) (m ((c.tc : Thread nD τ).loc main_arg3)) := by
  unfold Cert.ReferenceIdeal.ValueP.res_main_v40
  rfl

/-- Every weakly fair execution of the reference terminates with the new prototypes and the new mask of the per-class
    sums and counts of the launch arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
        = Cert.KernelIdeal.newProtos (F := Ideal) (segSum (m ((c.tc : Thread nD τ).loc main_arg0)) (m ((c.tc : Thread nD τ).loc main_arg1)))
            (segCount (m ((c.tc : Thread nD τ).loc main_arg1)))
            (m ((c.tc : Thread nD τ).loc main_arg2)) (m ((c.tc : Thread nD τ).loc main_arg3))
      ∧ r.2.mem ((c.tc : Thread nD τ).loc main_v41)
        = Cert.KernelIdeal.newMask (F := Ideal) (segCount (m ((c.tc : Thread nD τ).loc main_arg1))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((res_protos m c).trans (by
        show Cert.KernelIdeal.newProtos (F := Ideal) (rowsScatter _ _) (onesScatter _) _ _ = _
        rw [show rowsScatter (F := Ideal) (m ((c.tc : Thread nD τ).loc main_arg0)) (m ((c.tc : Thread nD τ).loc main_arg1)) = _ from scatterRows_eq _ _,
          show onesScatter (F := Ideal) (m ((c.tc : Thread nD τ).loc main_arg1)) = _ from scatterOnes_eq _])),
      (h c).2.1.trans (by
        show Cert.KernelIdeal.newMask (F := Ideal) (onesScatter (F := Ideal) (m ((c.tc : Thread nD τ).loc main_arg1))) _ = _
        rw [show onesScatter (F := Ideal) (m ((c.tc : Thread nD τ).loc main_arg1)) = _ from scatterOnes_eq _]),
      (h c).2.2⟩)
    (Cert.ReferenceIdeal.ValueP.run (F := Ideal) m ρ)

end Tail

end Cert.ReferenceIdeal.RefValue

end
-- ==== Proof.lean ====
/-
  The kernel computes, for 262144 samples with labels in 1000 classes, the per-class sums of the feature rows and the per-class
  counts by multiplying 0/1 matrices with blocks of 4096 samples and adding the products over 2 × 32 blocks; the reference adds
  every row into the class its label names. Both then run the same tail (mean, row normalisation, moving average, two selects).

  Over the extended reals both per-class sums are  Σ_n [y[n] = k] · z[n, d]  and both counts  Σ_n [y[n] = k]  (a label outside
  [0, 1000) belongs to no class on either side): the 0/1 factor keeps or kills a term whatever its value, and the sums differ
  only in the order and grouping of their terms. So the two programs end with equal results, index by index; no finiteness of the
  inputs is used. The kernel's idealization dropped one round trip f32 → bf16 → f32 of the 0/1 matrix (before it is summed
  into the counts): its one rule statement is the preserves claim.

  The three frames: the two kernel programs' are generated whole; the reference's is its run with the results dropped.
-/
import proofs.«402248_j17849884082283_1_alg».proof.Defs
import proofs.«402248_j17849884082283_1_alg».proof.Proof.Gen.Kernel
import proofs.«402248_j17849884082283_1_alg».proof.Proof.Gen.Kernel.Skeleton
import proofs.«402248_j17849884082283_1_alg».proof.Proof.Gen.Kernel.Launch
import proofs.«402248_j17849884082283_1_alg».proof.Proof.Gen.Kernel.Points
import proofs.«402248_j17849884082283_1_alg».proof.Proof.Gen.Kernel.Frame
import proofs.«402248_j17849884082283_1_alg».proof.Proof.Gen.KernelIdeal
import proofs.«402248_j17849884082283_1_alg».proof.Proof.Gen.KernelIdeal.Skeleton
import proofs.«402248_j17849884082283_1_alg».proof.Proof.Gen.KernelIdeal.Launch
import proofs.«402248_j17849884082283_1_alg».proof.Proof.Gen.KernelIdeal.Points
import proofs.«402248_j17849884082283_1_alg».proof.Proof.Gen.KernelIdeal.Frame
import proofs.«402248_j17849884082283_1_alg».proof.Proof.Gen.ReferenceIdeal
import proofs.«402248_j17849884082283_1_alg».proof.Proof.Gen.Pre_finite_inputs
import proofs.«402248_j17849884082283_1_alg».proof.Proof.KernelValue
import proofs.«402248_j17849884082283_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- The one rewrite of the ideal pass: widening back a value narrowed to bf16 gives the value, over the extended reals. -/
theorem preserves : Cert.preserves_Kernel_KernelIdeal :=
  IdealRules.truncf_extf.statement Cert.KernelIdeal.S4096x1000 .f32 .bf16

/-- Both programs end at the new prototypes and the new mask of the per-class sums and counts of their (equal) arguments. -/
theorem algebraic : Cert.algebraic_KernelIdeal_ReferenceIdeal := by
  intro m ρ m' ρ' _ hagree
  refine ⟨_, _, Cert.KernelIdeal.SegValue.run m ρ, ?_⟩
  refine (θ_run Cert.ReferenceIdeal.defs _ _).mono (fun _ h c => ⟨?_, ?_, (h c).2.2⟩) (Cert.ReferenceIdeal.RefValue.run m' ρ')
  · rw [(h c).1, (hagree c).1, (hagree c).2.1, (hagree c).2.2.1, (hagree c).2.2.2]
  · rw [(h c).2.1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
